-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S4096x256 .f32) (main_arg5 : FVec F S256 .f32) (main_arg6 : FVec F S4096 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096 .f32) (main_arg3 : FVec F S256x4096 .f32) (main_arg4 : FVec F S4096x256 .f32) (main_arg5 : FVec F S256 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S512x512 : Shape := ⟨2, ![512, 512]⟩
abbrev S512x256 : Shape := ⟨2, ![512, 256]⟩
abbrev S256x512 : Shape := ⟨2, ![256, 512]⟩
abbrev S512 : Shape := ⟨1, ![512]⟩
abbrev S256x1 : Shape := ⟨2, ![256, 1]⟩
abbrev S512x1 : Shape := ⟨2, ![512, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x4096, .f32⟩
  | .hbm, ⟨4, _⟩ => ⟨S4096x256, .f32⟩
  | .hbm, ⟨5, _⟩ => ⟨S256, .f32⟩
  | .hbm, ⟨6, _⟩ => ⟨S4096, .f32⟩
  | .hbm, ⟨7, _⟩ => ⟨S4096x4096, .bf16⟩
  | .hbm, ⟨8, _⟩ => ⟨S1x4096, .f32⟩
  | .hbm, ⟨9, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S256x512, .f32⟩
  | .local _ .vmem, ⟨6, _⟩ => ⟨S256, .f32⟩
  | .local _ .vmem, ⟨7, _⟩ => ⟨S512, .f32⟩
  | .local _ .vmem, ⟨8, _⟩ => ⟨S512, .f32⟩
  | .local _ .vmem, ⟨9, _⟩ => ⟨S512x512, .bf16⟩
  | .local _ .vmem, ⟨10, _⟩ => ⟨S512x512, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256_S256_0 : ∀ a, (![0] : Fin 1 → Nat) a + S256.size a ≤ S256.size a
  h_S256 : 0 < S256.numel
  shapeCasts_S256_S256x1 : S256.ShapeCasts S256x1
  inb_S256x512_S256x512_0_0 : ∀ a, (![0, 0] : Fin 2 → Nat) a + S256x512.size a ≤ S256x512.size a
  h_S256x512 : 0 < S256x512.numel
  broadcasts_S256x1_S256x512 : S256x1.Broadcasts S256x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S512_S512_0 : ∀ a, (![0] : Fin 1 → Nat) a + S512.size a ≤ S512.size a
  h_S512 : 0 < S512.numel
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S512x256_S256x512_S512x512_1_0_0_1_n_n_wf : DotDims.WF S512x256 S256x512 S512x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x4096.size a
  hwx0_2 : ∀ i : grid0.Coords, EltTy.bits .f32 = 32 ∨ (Rect.block (s := S256x4096) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .bf16 = 32 ∨ (Rect.block (s := S4096x4096) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S4096x1 : Shape := ⟨2, ![4096, 1]⟩
abbrev S256x1 : Shape := ⟨2, ![256, 1]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x4096, .f32⟩
  | .hbm, ⟨4, _⟩ => ⟨S4096x256, .f32⟩
  | .hbm, ⟨5, _⟩ => ⟨S256, .f32⟩
  | .hbm, ⟨6, _⟩ => ⟨S4096, .f32⟩
  | .hbm, ⟨7, _⟩ => ⟨S4096x1, .f32⟩
  | .hbm, ⟨8, _⟩ => ⟨S4096x256, .f32⟩
  | .hbm, ⟨9, _⟩ => ⟨S4096x256, .f32⟩
  | .hbm, ⟨10, _⟩ => ⟨S256x1, .f32⟩
  | .hbm, ⟨11, _⟩ => ⟨S256x4096, .f32⟩
  | .hbm, ⟨12, _⟩ => ⟨S256x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x256_S256x4096_S4096x4096_1_0_0_1_n_n_wf : DotDims.WF S4096x256 S256x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Kernel.Region0.lean ====
/-
  Region 0 (the weight-merging kernel) at the buffer contents V the region is entered from.
  Grid 8 x 8 over (j, k). At point (j, k) the body reads the 512 x 512 block (j, k) of the base weight, the
  512 x 256 block (j, 0) of B, the 256 x 512 block (0, k) of A, the whole vector d and the 512-block j of b,
  and stores into the 512 x 512 block (j, k) of the merged weight the one value
      W + (4 * b) * (B . (d * A))
  (the payload k0_pay1 of the five loads). The body keeps nothing between points, so after the body at a point
  each input's buffer holds its block and the output's buffer holds that payload of the input blocks.
-/
import proofs.«160088_j61813169324212_1_alg».proof.Proof.Gen.Kernel.Launch
import proofs.«160088_j61813169324212_1_alg».proof.Proof.Gen.Kernel.Skeleton
import proofs.«160088_j61813169324212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or not
    (unfetched, the block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or not
    (unfetched, the block index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or not
    (unfetched, the block index has not moved since the fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or not
    (unfetched, the block index has not moved since the fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or not
    (unfetched, the block index has not moved since the fetch). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body stores through: the whole 512 x 512 buffer. -/
abbrev r0_out : Rect S512x512 := Rect.unit (s := S512x512) ![0, 0] S512x512.size inb_S512x512_S512x512_0_0

/-- The output buffer after the body, from the five input blocks (w : the base weight's block, bB : B's, aA : A's,
    d, b): the one store's value read back. -/
def out0_5 (xw : Vec F S512x512 .f32) (xB : Vec F S512x256 .f32) (xA : Vec F S256x512 .f32) (xd : Vec F S256 .f32) (xb : Vec F S512 .f32) :
    Vec F S512x512 .bf16 :=
  View.canon [⟨r0_out, k0_pay1 (View.ld xd (Rect.unit (s := S256) ![0] S256.size inb_S256_S256_0))
      (View.ld xA (Rect.unit (s := S256x512) ![0, 0] S256x512.size inb_S256x512_S256x512_0_0))
      (View.ld xB (Rect.unit (s := S512x256) ![0, 0] S512x256.size inb_S512x256_S512x256_0_0))
      (View.ld xb (Rect.unit (s := S512) ![0] S512.size inb_S512_S512_0))
      (View.ld xw (Rect.unit (s := S512x512) ![0, 0] S512x512.size inb_S512x512_S512x512_0_0))⟩]

/-- The store covers the buffer. -/
theorem cover0_5 (p0 : Vec F S512x512 .bf16) (y : S512x512.Idx) :
    ∃ pc ∈ ([⟨r0_out, p0⟩] : List (View.Piece (Elt F) S512x512 .bf16)), y ∈ pc.1.set :=
  View.cover_of_tiled [⟨r0_out, p0⟩] S512x512.size (by rfl) y

/-! ## The body's triple -/

set_option maxHeartbeats 1000000 in
/-- The body on whole staging memrefs, the inputs' at contents x. and the output's at anything, runs to the
    continuation holding the inputs' as they were and the output's at out0_5 of them. -/
theorem sound_kernel0 (c : Dev nD) (E : Set ℕ) (i : grid0.Coords)
    (arg2 : Memref sig .tc .vmem S512x512 .f32) (harg2 : arg2.IsWhole) (arg3 : Memref sig .tc .vmem S512x256 .f32) (harg3 : arg3.IsWhole)
    (arg4 : Memref sig .tc .vmem S256x512 .f32) (harg4 : arg4.IsWhole) (arg5 : Memref sig .tc .vmem S256 .f32) (harg5 : arg5.IsWhole)
    (arg6 : Memref sig .tc .vmem S512 .f32) (harg6 : arg6.IsWhole) (arg7 : Memref sig .tc .vmem S512x512 .bf16) (harg7 : arg7.IsWhole)
    (xw : Vec F S512x512 .f32) (xB : Vec F S512x256 .f32) (xA : Vec F S256x512 .f32) (xd : Vec F S256 .f32) (xb : Vec F S512 .f32)
    (K : PUnit → sProp 𝕄) :
    iprop(owns (c : Thread nD τ) arg2 fullShare xw ∗ owns (c : Thread nD τ) arg3 fullShare xB ∗ owns (c : Thread nD τ) arg4 fullShare xA
        ∗ owns (c : Thread nD τ) arg5 fullShare xd ∗ owns (c : Thread nD τ) arg6 fullShare xb ∗ (∃ d, owns (c : Thread nD τ) arg7 fullShare d)
        ∗ (iprop(owns (c : Thread nD τ) arg2 fullShare xw ∗ owns (c : Thread nD τ) arg3 fullShare xB ∗ owns (c : Thread nD τ) arg4 fullShare xA
            ∗ owns (c : Thread nD τ) arg5 fullShare xd ∗ owns (c : Thread nD τ) arg6 fullShare xb
            ∗ owns (c : Thread nD τ) arg7 fullShare (out0_5 xw xB xA xd xb)) -∗ K ⟨⟩))
      ⊢ wp frame (wpE (defs₀ (F := F)) Variants.none c none) E (cc0__delta_kernel i arg2 harg2 arg3 harg3 arg4 harg4 arg5 harg5 arg6 harg6 arg7 harg7) K := by
  simp only [cc0__delta_kernel_eq_skeleton]; unfold cc0__delta_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- Region 0's proof data on core c: the arrays as the region finds them; after the body at point t each input's
    buffer at its block and the output's at out0_5 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1Runs.lean ====
/-
  Region 1 (the blocked matrix product x . merged^T + bias), the body's three runs.
  Grid 8 x 4 x 4 over (i, j, k). The body keeps a 1024 x 1024 accumulator in a scratch buffer of its own between
  the points of one (i, j): at k = 0 it first stores zeros into it; at every k it adds the product of the point's
  x block (rounded to bf16) with the transposed merged-weight block; at k = 3 it stores the accumulator plus the
  bias row into the output block. So a point is in one of three cases by k: A (k = 0), B (k = 1, 2), C (k = 3).
  Each case's run is stated with the lists of pieces the stores leave in the scratch and in the output's buffer
  as its witness.
-/
import proofs.«160088_j61813169324212_1_alg».proof.Proof.Gen.Kernel.Launch
import proofs.«160088_j61813169324212_1_alg».proof.Proof.Gen.Kernel.Skeleton
import proofs.«160088_j61813169324212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or not
    (unfetched, the block index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or not
    (unfetched, the block index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or not
    (unfetched, the block index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch (reset the accumulator) is taken where the grid's third coordinate is 0, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- the second (add the bias and store the output) where it is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where k is not 3 the output window is idle (nothing is stored into it) and its block is not written back; -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- where k is 3 it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point t, spelled as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, -/
abbrev scM1_0 : Memref sig .tc .vmem S1024x1024 .f32 := Memref.whole cc1_scratch0
/-- and as a view: what it holds is stated through it. -/
abbrev VS1_0 : View sig .tc .vmem S1024x1024 .f32 := scM1_0.view

/-! ## The region's invariant -/

/-- The core's scoped buffers that region 1 does not use (region 0's staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The invariant's frame around the accumulator: those buffers, the accumulator as S says, and the generator register
    at some state. -/
def Phi1 (c : Dev nD) (S : sProp 𝕄) : sProp 𝕄 :=
  iprop((others1 c ∗ S) ∗ (∃ r, prngReg c r))

/-- What the launch hands the region is that frame with the accumulator at anything (the separating conjunction
    reassociated). -/
theorem PhiA1_eq (c : Dev nD) :
    (Pipeline.ΦA spec1 c : sProp 𝕄) = Phi1 c iprop(∃ d, owns (c : Thread nD τ) scM1_0 fullShare d) := by
  unfold Pipeline.ΦA Phi1 others1; rw [scopedRest1_eq]; simp only [scM1_0, owns_whole]
  refine BI.Entails.antisymm (show (_ : sProp 𝕄) ⊢ _ from ?_) (show (_ : sProp 𝕄) ⊢ _ from ?_)
  · iintro ⟨⟨H0, H1, H2, H3, H4, H5, H6, H7, H8, H9, H10, HS⟩, Hg⟩
    isplitr [Hg]
    swap; · iexact Hg
    isplitr [HS]
    swap; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨H0, H1, H2, H3, H4, H5, H6, H7, H8, H9, H10⟩, HS⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS

/-- The frame is monotone in what it says of the accumulator. -/
theorem Phi1_mono (c : Dev nD) (S S' : sProp 𝕄) (h : S ⊢ S') : Phi1 c S ⊢ Phi1 c S' := by
  unfold Phi1
  iintro ⟨⟨Hoth, HS⟩, Hg⟩
  isplitr [Hg]
  swap; · iexact Hg
  isplitl [Hoth]; · iexact Hoth
  iapply h; iexact HS

/-! ## The three runs -/

set_option maxHeartbeats 1000000 in
/-- Case A (k = 0: the accumulator is reset, then updated; the output is not touched): the pieces the body's stores leave in the output's buffer (L3) and in the accumulator (LS0), last
    first, with the proof that on whole memrefs the body runs to the continuation holding the inputs' as they were and
    those pieces written. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (k = 1, 2: the accumulator is updated; the output is not touched): the pieces the body's stores leave in the output's buffer (L3) and in the accumulator (LS0), last
    first, with the proof that on whole memrefs the body runs to the continuation holding the inputs' as they were and
    those pieces written. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (k = 3: the accumulator is updated, then read back and stored, with the bias row added, into the output): the pieces the body's stores leave in the output's buffer (L3) and in the accumulator (LS0), last
    first, with the proof that on whole memrefs the body runs to the continuation holding the inputs' as they were and
    those pieces written. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Kernel.Region1.lean ====
/-
  Region 1 (the blocked matrix product x . merged^T + bias) at the buffer contents V the region is entered from.
  Grid 8 x 4 x 4 over (i, j, k). At point (i, j, k) the body reads the 1024 x 1024 block (i, k) of x, the
  1024 x 1024 block (j, k) of the merged weight and the 1024-block j of the bias row. A 1024 x 1024 accumulator, a
  scratch buffer of the kernel's own, is carried between the points of one (i, j): zeroed where k = 0, increased at
  every k by the product of the x block (rounded to bf16) with the transposed weight block, and where k = 3 stored,
  with the bias row added to every row, into the output's block (i, j), which is written back there only.
  So what the accumulator and the output's buffer hold after a point is defined by recursion on the point
  (outsAt1), the region's invariant carries the accumulator from point to point (PhiS1), and the body obligation
  is the three cases' runs.
-/
import proofs.«160088_j61813169324212_1_alg».proof.Proof.Kernel.Region1Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the accumulator -/

/-- Case A (k = 0) stores nothing into the output's buffer: a placeholder nothing consults (the window is idle there
    and its buffer is handed back as found). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A (k = 0) leaves in the accumulator: its stores read back. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B (k = 1, 2) stores nothing into the output's buffer: a placeholder nothing consults (the window is idle there
    and its buffer is handed back as found). -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B (k = 1, 2) leaves in the accumulator: its stores read back. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output's buffer covers it. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C (k = 3) leaves in the output's buffer: its store read back. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C (k = 3) leaves in the accumulator: its stores read back. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- THE ACCUMULATION: (the output's staging buffer, the accumulator) after the body at position n — the case the position's
    k selects, run at the point's memrefs and input blocks, over what the position before left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant, point by point -/

/-- The region's invariant before position n: before the first point what the launch hands over (the accumulator at
    anything); afterwards the accumulator at what the point before left in it. -/
def PhiS1 (c : Dev nD) : (n : ℕ) → n ≤ cfg1.N → sProp 𝕄
  | 0, _ => Pipeline.ΦA spec1 c
  | n + 1, hn => Phi1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = Phi1 c (owns (c : Thread nD τ) scM1_0 fullShare ((outsAt1 V c n hn).2)) := rfl

/-- Before a point that is not the first: the accumulator at what the point before left. -/
theorem PhiS1_pos (c : Dev nD) (n : ℕ) (h : n ≤ cfg1.N) (hz : n ≠ 0) :
    PhiS1 V c n h = Phi1 c (owns (c : Thread nD τ) scM1_0 fullShare ((outsAt1 V c (n - 1) (by omega)).2)) := by
  cases n with
  | zero => exact absurd rfl hz
  | succ n => rfl

/-! ## The pipeline's proof data -/

/-- Region 1's proof data on core c: the arrays as the region finds them; after the body at point t each input's
    buffer at its block and the output's at outsAt1's first component; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t : Fin (cfg1.N + 1)) : (dat1 V c).owed t = 0 := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's k says which case it is in; the invariant
    hands the body the accumulator at what the point before left (at anything where k = 0, which resets it) and takes it
    back at this point's contents; where k is not 3 the output's buffer is handed back as found; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold Phi1
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitr [Hg]
          swap; · iexact Hg
          isplitl [Hoth]; · iexact Hoth
          unfold owns; iexists _; isplitr
          swap; · iexact HS0
          ipureintro; exact View.read_writes_of_cover _ _ _ _ _ (scover1_A_0 c _ _ _ _ _ _ _ _ _ _ _ _ _ _ _ _)
        isplitl [Ho]; · iexact Ho
        isplitl [H0]; · iexact H0
        isplitl [H1]; · iexact H1
        isplitl [H2]; · iexact H2
        iexists _; iexact H3
      · rw [PhiS1_castSucc V c t, PhiS1_pos V c _ _ hz]
        unfold Phi1
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitr [Hg]
          swap; · iexact Hg
          isplitl [Hoth]; · iexact Hoth
          unfold owns; iexists _; isplitr
          swap; · iexact HS0
          ipureintro; exact View.read_writes_of_cover _ _ _ _ _ (scover1_A_0 c _ _ _ _ _ _ _ _ _ _ _ _ _ _ _ _)
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      unfold Phi1
      iintro ⟨⟨⟨Hoth, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitr [Hg]
        swap; · iexact Hg
        isplitl [Hoth]; · iexact Hoth
        unfold owns; iexists _; isplitr
        swap; · iexact HS0
        ipureintro; exact View.read_writes_of_cover _ _ _ _ _ (scover1_C_0 c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      unfold Phi1
      iintro ⟨⟨⟨Hoth, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitr [Hg]
        swap; · iexact Hg
        isplitl [Hoth]; · iexact Hoth
        unfold owns; iexists _; isplitr
        swap; · iexact HS0
        ipureintro; exact View.read_writes_of_cover _ _ _ _ _ (scover1_B_0 c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  refine Phi1_mono c _ _ ?_
  iintro HS0
  iexists _; iexact HS0

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

/-! ## The three cases, as the payloads of the point's blocks -/

/-- The stores and loads go through the whole-buffer rectangle at offset (0, 0). -/
theorem hz1 : (![0, 0] : Fin 2 → Nat) = fun _ => 0 := funext fun a => by
  match a with
  | 0 => rfl
  | 1 => rfl

/-- Case A leaves in the accumulator the product of the blocks added to the zero vector: the update reads the reset back. -/
theorem sout1_A_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    sout1_A_0 c i arg3 harg3 arg4 harg4 arg5 harg5 arg6 harg6 arg7 harg7 hc0 hc1 x0 x1 x2 = k1_pay2 x0 (k1_pay1 (F := F)) x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- Case B leaves in the accumulator the product added to what it held. -/
theorem sout1_B_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    sout1_B_0 c i arg3 harg3 arg4 harg4 arg5 harg5 arg6 harg6 arg7 harg7 hc0 hc1 x0 x1 x2 xs0 = k1_pay2 x0 xs0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero (S := S1024x1024) hz1]
  simp only [View.readAt_eq_ld, harg3.read_unread, harg4.read_unread, harg7.read_unread, View.ld_unit_zero (S := S1024x1024) hz1]

/-- Case C leaves in the accumulator the product added to what it held, -/
theorem sout1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    sout1_C_0 c i arg3 harg3 arg4 harg4 arg5 harg5 arg6 harg6 arg7 harg7 hc0 hc1 x0 x1 x2 xs0 = k1_pay2 x0 xs0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readAt_eq_ld, harg3.read_unread, harg4.read_unread, harg7.read_unread, View.ld_unit_zero (S := S1024x1024) hz1]

/-- and in the output's buffer that accumulator, read back, plus the bias row. -/
theorem out1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 xs0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readCov_unit_zero (S := S1024x1024) _ hz1, View.readAt_eq_ld, harg3.read_unread, harg4.read_unread, harg5.read_unread,
    harg7.read_unread, View.ld_unit_zero (S := S1024x1024) hz1, View.ld_unit_zero (S := S1x1024) hz1]

/-- At a point that resets (position ≡ 0 mod 4) the accumulator ends at the product of the point's blocks added to the zero vector. -/
theorem scratch_reset (c : Dev nD) (t : Fin cfg1.N) (h0 : t.val % 4 = 0) :
    (outsAt1 V c t.val t.isLt).2 = k1_pay2 (iblk1 V c 0 t) (k1_pay1 (F := F)) (iblk1 V c 1 t) := by
  have h1 : ¬t.val % 4 = 3 := by omega
  rw [outsAt1_A V c t h0 h1]; dsimp only
  exact sout1_A_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At any other point it ends at the product added to what the point before left. -/
theorem scratch_step (c : Dev nD) (t : Fin cfg1.N) (h0 : ¬t.val % 4 = 0) :
    (outsAt1 V c t.val t.isLt).2
      = k1_pay2 (iblk1 V c 0 t) (outsAt1 V c (t.val - 1) (Nat.lt_of_le_of_lt (Nat.sub_le _ _) t.isLt)).2 (iblk1 V c 1 t) := by
  by_cases h1 : t.val % 4 = 3
  · rw [outsAt1_C V c t h0 h1]; dsimp only
    exact sout1_C_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]; dsimp only
    exact sout1_B_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At a point that stores the output (position ≡ 3 mod 4) the output's buffer ends at the accumulator plus the bias row. -/
theorem out_store (c : Dev nD) (t : Fin cfg1.N) (h1 : t.val % 4 = 3) :
    (outsAt1 V c t.val t.isLt).1 = k1_pay3 (outsAt1 V c t.val t.isLt).2 (iblk1 V c 2 t) := by
  have h0 : ¬t.val % 4 = 0 := by omega
  rw [outsAt1_C V c t h0 h1]; dsimp only
  rw [sout1_C_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
  exact out1_C_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Cert.Kernel.Hand

end
-- ==== Proof.Kernel.Run.lean ====
/-
  The launch. @main is region 0, one host reshape (the bias as a one-row matrix), region 1. The contents of the
  core's unscoped buffers at the four boundaries are a fold from the launch memory: W0 the launch memory; W1 after
  region 0 (its arrays at what its write-backs leave: the merged weight new, the inputs as entered); W2 after the
  reshape; W3 after region 1 (the result new). Each region is a segment of the several-regions launch at the proof data
  of the contents it is entered from; every weakly fair execution ends with every unscoped buffer at W3, and W3 at an
  argument walks back through the fold to the launch memory.
-/
import proofs.«160088_j61813169324212_1_alg».proof.Proof.Kernel.Region0
import proofs.«160088_j61813169324212_1_alg».proof.Proof.Kernel.Region1
import proofs.«160088_j61813169324212_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch: region 0's entry. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- main_arg0 reaches the end as launched: region 1 only reads it, the reshape writes another buffer, region 0 bypasses it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m ρ c (Proc.devRef .tc main_arg0) := W1_of_ne m ρ c main_arg0 (by decide)
    _ = m ((c : Thread nD τ).loc main_arg0) := rfl

/-- main_arg1 reaches the end as launched: region 1 bypasses it, the reshape writes another buffer, region 0 only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- main_arg2 reaches the end as launched: region 1 bypasses it, the reshape writes another buffer, region 0 bypasses it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W0 m ρ c (Proc.devRef .tc main_arg2) := W1_of_ne m ρ c main_arg2 (by decide)
    _ = m ((c : Thread nD τ).loc main_arg2) := rfl

/-- main_arg3 reaches the end as launched: region 1 bypasses it, the reshape writes another buffer, region 0 only reads it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- main_arg4 reaches the end as launched: region 1 bypasses it, the reshape writes another buffer, region 0 only reads it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W0 m ρ c (Proc.devRef .tc main_arg4) := (W1_arr m ρ c 1).trans (((dat0 (V0 m ρ) c).arrAt_in 1 rfl _).trans (A_eq0 (V0 m ρ) c 1))
    _ = m ((c : Thread nD τ).loc main_arg4) := rfl

/-- main_arg5 reaches the end as launched: region 1 bypasses it, the reshape writes another buffer, region 0 only reads it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W0 m ρ c (Proc.devRef .tc main_arg5) := (W1_arr m ρ c 3).trans (((dat0 (V0 m ρ) c).arrAt_in 3 rfl _).trans (A_eq0 (V0 m ρ) c 3))
    _ = m ((c : Thread nD τ).loc main_arg5) := rfl

/-- main_arg6 reaches the end as launched: region 1 bypasses it, the reshape writes another buffer, region 0 only reads it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          exact StableHlo.devRef_ne_of_ne (by decide)))
    _ = W0 m ρ c (Proc.devRef .tc main_arg6) := (W1_arr m ρ c 4).trans (((dat0 (V0 m ρ) c).arrAt_in 4 rfl _).trans (A_eq0 (V0 m ρ) c 4))
    _ = m ((c : Thread nD τ).loc main_arg6) := rfl

/-! ## The proof data family and the thread state -/

abbrev adm : (p : Fin 2) → (pcfgs (F := F) p).Adm := fun p => (cfgs p).toPCfg_adm
/-- Each pipeline's proof data at its region's entry contents (a literal match on the pipeline's index). -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment, from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at W3, the generator register at some state. -/
abbrev Tₙ (c : Dev nD) : sProp 𝕄 := iprop(StableHlo.held (c : Thread nD τ) (Pipeline.ucRefs τ sig) (W3 m ρ c) ∗ ∃ r, prngReg c r)

/-! ## The regions as segments -/

-- unification with the pinned configuration may unfold plain definitions in a metavariable's type
set_option backward.isDefEq.respectTransparency.types false in
/-- Region 0 over the thread state: entered from every unscoped buffer at W0, left at W1. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered from every unscoped buffer at W2, left at W3. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      (share1 (V2 m ρ) c) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) (share1 (V2 m ρ) c)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer of every core at W3. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_main m ρ)

end Cert.Kernel.Hand

end
-- ==== Proof.KernelIdeal.Region0.lean ====
/-
  Region 0 (the weight-merging kernel) at the buffer contents V the region is entered from.
  Grid 8 x 8 over (j, k). At point (j, k) the body reads the 512 x 512 block (j, k) of the base weight, the
  512 x 256 block (j, 0) of B, the 256 x 512 block (0, k) of A, the whole vector d and the 512-block j of b,
  and stores into the 512 x 512 block (j, k) of the merged weight the one value
      W + (4 * b) * (B . (d * A))
  (the payload k0_pay1 of the five loads). The body keeps nothing between points, so after the body at a point
  each input's buffer holds its block and the output's buffer holds that payload of the input blocks.
-/
import proofs.«160088_j61813169324212_1_alg».proof.Proof.Gen.KernelIdeal.Launch
import proofs.«160088_j61813169324212_1_alg».proof.Proof.Gen.KernelIdeal.Skeleton
import proofs.«160088_j61813169324212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or not
    (unfetched, the block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or not
    (unfetched, the block index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or not
    (unfetched, the block index has not moved since the fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or not
    (unfetched, the block index has not moved since the fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or not
    (unfetched, the block index has not moved since the fetch). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body stores through: the whole 512 x 512 buffer. -/
abbrev r0_out : Rect S512x512 := Rect.unit (s := S512x512) ![0, 0] S512x512.size inb_S512x512_S512x512_0_0

/-- The output buffer after the body, from the five input blocks (w : the base weight's block, bB : B's, aA : A's,
    d, b): the one store's value read back. -/
def out0_5 (xw : Vec F S512x512 .f32) (xB : Vec F S512x256 .f32) (xA : Vec F S256x512 .f32) (xd : Vec F S256 .f32) (xb : Vec F S512 .f32) :
    Vec F S512x512 .bf16 :=
  View.canon [⟨r0_out, k0_pay1 (View.ld xd (Rect.unit (s := S256) ![0] S256.size inb_S256_S256_0))
      (View.ld xA (Rect.unit (s := S256x512) ![0, 0] S256x512.size inb_S256x512_S256x512_0_0))
      (View.ld xB (Rect.unit (s := S512x256) ![0, 0] S512x256.size inb_S512x256_S512x256_0_0))
      (View.ld xb (Rect.unit (s := S512) ![0] S512.size inb_S512_S512_0))
      (View.ld xw (Rect.unit (s := S512x512) ![0, 0] S512x512.size inb_S512x512_S512x512_0_0))⟩]

/-- The store covers the buffer. -/
theorem cover0_5 (p0 : Vec F S512x512 .bf16) (y : S512x512.Idx) :
    ∃ pc ∈ ([⟨r0_out, p0⟩] : List (View.Piece (Elt F) S512x512 .bf16)), y ∈ pc.1.set :=
  View.cover_of_tiled [⟨r0_out, p0⟩] S512x512.size (by rfl) y

/-! ## The body's triple -/

set_option maxHeartbeats 1000000 in
/-- The body on whole staging memrefs, the inputs' at contents x. and the output's at anything, runs to the
    continuation holding the inputs' as they were and the output's at out0_5 of them. -/
theorem sound_kernel0 (c : Dev nD) (E : Set ℕ) (i : grid0.Coords)
    (arg2 : Memref sig .tc .vmem S512x512 .f32) (harg2 : arg2.IsWhole) (arg3 : Memref sig .tc .vmem S512x256 .f32) (harg3 : arg3.IsWhole)
    (arg4 : Memref sig .tc .vmem S256x512 .f32) (harg4 : arg4.IsWhole) (arg5 : Memref sig .tc .vmem S256 .f32) (harg5 : arg5.IsWhole)
    (arg6 : Memref sig .tc .vmem S512 .f32) (harg6 : arg6.IsWhole) (arg7 : Memref sig .tc .vmem S512x512 .bf16) (harg7 : arg7.IsWhole)
    (xw : Vec F S512x512 .f32) (xB : Vec F S512x256 .f32) (xA : Vec F S256x512 .f32) (xd : Vec F S256 .f32) (xb : Vec F S512 .f32)
    (K : PUnit → sProp 𝕄) :
    iprop(owns (c : Thread nD τ) arg2 fullShare xw ∗ owns (c : Thread nD τ) arg3 fullShare xB ∗ owns (c : Thread nD τ) arg4 fullShare xA
        ∗ owns (c : Thread nD τ) arg5 fullShare xd ∗ owns (c : Thread nD τ) arg6 fullShare xb ∗ (∃ d, owns (c : Thread nD τ) arg7 fullShare d)
        ∗ (iprop(owns (c : Thread nD τ) arg2 fullShare xw ∗ owns (c : Thread nD τ) arg3 fullShare xB ∗ owns (c : Thread nD τ) arg4 fullShare xA
            ∗ owns (c : Thread nD τ) arg5 fullShare xd ∗ owns (c : Thread nD τ) arg6 fullShare xb
            ∗ owns (c : Thread nD τ) arg7 fullShare (out0_5 xw xB xA xd xb)) -∗ K ⟨⟩))
      ⊢ wp frame (wpE (defs₀ (F := F)) Variants.none c none) E (cc0__delta_kernel i arg2 harg2 arg3 harg3 arg4 harg4 arg5 harg5 arg6 harg6 arg7 harg7) K := by
  simp only [cc0__delta_kernel_eq_skeleton]; unfold cc0__delta_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- Region 0's proof data on core c: the arrays as the region finds them; after the body at point t each input's
    buffer at its block and the output's at out0_5 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1Runs.lean ====
/-
  Region 1 (the blocked matrix product x . merged^T + bias), the body's three runs.
  Grid 8 x 4 x 4 over (i, j, k). The body keeps a 1024 x 1024 accumulator in a scratch buffer of its own between
  the points of one (i, j): at k = 0 it first stores zeros into it; at every k it adds the product of the point's
  x block (rounded to bf16) with the transposed merged-weight block; at k = 3 it stores the accumulator plus the
  bias row into the output block. So a point is in one of three cases by k: A (k = 0), B (k = 1, 2), C (k = 3).
  Each case's run is stated with the lists of pieces the stores leave in the scratch and in the output's buffer
  as its witness.
-/
import proofs.«160088_j61813169324212_1_alg».proof.Proof.Gen.KernelIdeal.Launch
import proofs.«160088_j61813169324212_1_alg».proof.Proof.Gen.KernelIdeal.Skeleton
import proofs.«160088_j61813169324212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or not
    (unfetched, the block index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or not
    (unfetched, the block index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or not
    (unfetched, the block index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch (reset the accumulator) is taken where the grid's third coordinate is 0, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- the second (add the bias and store the output) where it is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where k is not 3 the output window is idle (nothing is stored into it) and its block is not written back; -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- where k is 3 it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point t, spelled as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, -/
abbrev scM1_0 : Memref sig .tc .vmem S1024x1024 .f32 := Memref.whole cc1_scratch0
/-- and as a view: what it holds is stated through it. -/
abbrev VS1_0 : View sig .tc .vmem S1024x1024 .f32 := scM1_0.view

/-! ## The region's invariant -/

/-- The core's scoped buffers that region 1 does not use (region 0's staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The invariant's frame around the accumulator: those buffers, the accumulator as S says, and the generator register
    at some state. -/
def Phi1 (c : Dev nD) (S : sProp 𝕄) : sProp 𝕄 :=
  iprop((others1 c ∗ S) ∗ (∃ r, prngReg c r))

/-- What the launch hands the region is that frame with the accumulator at anything (the separating conjunction
    reassociated). -/
theorem PhiA1_eq (c : Dev nD) :
    (Pipeline.ΦA spec1 c : sProp 𝕄) = Phi1 c iprop(∃ d, owns (c : Thread nD τ) scM1_0 fullShare d) := by
  unfold Pipeline.ΦA Phi1 others1; rw [scopedRest1_eq]; simp only [scM1_0, owns_whole]
  refine BI.Entails.antisymm (show (_ : sProp 𝕄) ⊢ _ from ?_) (show (_ : sProp 𝕄) ⊢ _ from ?_)
  · iintro ⟨⟨H0, H1, H2, H3, H4, H5, H6, H7, H8, H9, H10, HS⟩, Hg⟩
    isplitr [Hg]
    swap; · iexact Hg
    isplitr [HS]
    swap; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨H0, H1, H2, H3, H4, H5, H6, H7, H8, H9, H10⟩, HS⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS

/-- The frame is monotone in what it says of the accumulator. -/
theorem Phi1_mono (c : Dev nD) (S S' : sProp 𝕄) (h : S ⊢ S') : Phi1 c S ⊢ Phi1 c S' := by
  unfold Phi1
  iintro ⟨⟨Hoth, HS⟩, Hg⟩
  isplitr [Hg]
  swap; · iexact Hg
  isplitl [Hoth]; · iexact Hoth
  iapply h; iexact HS

/-! ## The three runs -/

set_option maxHeartbeats 1000000 in
/-- Case A (k = 0: the accumulator is reset, then updated; the output is not touched): the pieces the body's stores leave in the output's buffer (L3) and in the accumulator (LS0), last
    first, with the proof that on whole memrefs the body runs to the continuation holding the inputs' as they were and
    those pieces written. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (k = 1, 2: the accumulator is updated; the output is not touched): the pieces the body's stores leave in the output's buffer (L3) and in the accumulator (LS0), last
    first, with the proof that on whole memrefs the body runs to the continuation holding the inputs' as they were and
    those pieces written. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (k = 3: the accumulator is updated, then read back and stored, with the bias row added, into the output): the pieces the body's stores leave in the output's buffer (L3) and in the accumulator (LS0), last
    first, with the proof that on whole memrefs the body runs to the continuation holding the inputs' as they were and
    those pieces written. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KernelIdeal.Region1.lean ====
/-
  Region 1 (the blocked matrix product x . merged^T + bias) at the buffer contents V the region is entered from.
  Grid 8 x 4 x 4 over (i, j, k). At point (i, j, k) the body reads the 1024 x 1024 block (i, k) of x, the
  1024 x 1024 block (j, k) of the merged weight and the 1024-block j of the bias row. A 1024 x 1024 accumulator, a
  scratch buffer of the kernel's own, is carried between the points of one (i, j): zeroed where k = 0, increased at
  every k by the product of the x block (rounded to bf16) with the transposed weight block, and where k = 3 stored,
  with the bias row added to every row, into the output's block (i, j), which is written back there only.
  So what the accumulator and the output's buffer hold after a point is defined by recursion on the point
  (outsAt1), the region's invariant carries the accumulator from point to point (PhiS1), and the body obligation
  is the three cases' runs.
-/
import proofs.«160088_j61813169324212_1_alg».proof.Proof.KernelIdeal.Region1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the accumulator -/

/-- Case A (k = 0) stores nothing into the output's buffer: a placeholder nothing consults (the window is idle there
    and its buffer is handed back as found). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A (k = 0) leaves in the accumulator: its stores read back. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B (k = 1, 2) stores nothing into the output's buffer: a placeholder nothing consults (the window is idle there
    and its buffer is handed back as found). -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B (k = 1, 2) leaves in the accumulator: its stores read back. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output's buffer covers it. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C (k = 3) leaves in the output's buffer: its store read back. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C (k = 3) leaves in the accumulator: its stores read back. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- THE ACCUMULATION: (the output's staging buffer, the accumulator) after the body at position n — the case the position's
    k selects, run at the point's memrefs and input blocks, over what the position before left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant, point by point -/

/-- The region's invariant before position n: before the first point what the launch hands over (the accumulator at
    anything); afterwards the accumulator at what the point before left in it. -/
def PhiS1 (c : Dev nD) : (n : ℕ) → n ≤ cfg1.N → sProp 𝕄
  | 0, _ => Pipeline.ΦA spec1 c
  | n + 1, hn => Phi1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = Phi1 c (owns (c : Thread nD τ) scM1_0 fullShare ((outsAt1 V c n hn).2)) := rfl

/-- Before a point that is not the first: the accumulator at what the point before left. -/
theorem PhiS1_pos (c : Dev nD) (n : ℕ) (h : n ≤ cfg1.N) (hz : n ≠ 0) :
    PhiS1 V c n h = Phi1 c (owns (c : Thread nD τ) scM1_0 fullShare ((outsAt1 V c (n - 1) (by omega)).2)) := by
  cases n with
  | zero => exact absurd rfl hz
  | succ n => rfl

/-! ## The pipeline's proof data -/

/-- Region 1's proof data on core c: the arrays as the region finds them; after the body at point t each input's
    buffer at its block and the output's at outsAt1's first component; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t : Fin (cfg1.N + 1)) : (dat1 V c).owed t = 0 := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's k says which case it is in; the invariant
    hands the body the accumulator at what the point before left (at anything where k = 0, which resets it) and takes it
    back at this point's contents; where k is not 3 the output's buffer is handed back as found; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold Phi1
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hoth HS0 Hg]
        · isplitr [Hg]
          swap; · iexact Hg
          isplitl [Hoth]; · iexact Hoth
          unfold owns; iexists _; isplitr
          swap; · iexact HS0
          ipureintro; exact View.read_writes_of_cover _ _ _ _ _ (scover1_A_0 c _ _ _ _ _ _ _ _ _ _ _ _ _ _ _ _)
        isplitl [Ho]; · iexact Ho
        isplitl [H0]; · iexact H0
        isplitl [H1]; · iexact H1
        isplitl [H2]; · iexact H2
        iexists _; iexact H3
      · rw [PhiS1_castSucc V c t, PhiS1_pos V c _ _ hz]
        unfold Phi1
        iintro ⟨⟨⟨Hoth, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hoth HS0 Hg]
        · isplitr [Hg]
          swap; · iexact Hg
          isplitl [Hoth]; · iexact Hoth
          unfold owns; iexists _; isplitr
          swap; · iexact HS0
          ipureintro; exact View.read_writes_of_cover _ _ _ _ _ (scover1_A_0 c _ _ _ _ _ _ _ _ _ _ _ _ _ _ _ _)
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      unfold Phi1
      iintro ⟨⟨⟨Hoth, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitr [Hg]
        swap; · iexact Hg
        isplitl [Hoth]; · iexact Hoth
        unfold owns; iexists _; isplitr
        swap; · iexact HS0
        ipureintro; exact View.read_writes_of_cover _ _ _ _ _ (scover1_C_0 c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      unfold Phi1
      iintro ⟨⟨⟨Hoth, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitr [Hg]
        swap; · iexact Hg
        isplitl [Hoth]; · iexact Hoth
        unfold owns; iexists _; isplitr
        swap; · iexact HS0
        ipureintro; exact View.read_writes_of_cover _ _ _ _ _ (scover1_B_0 c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  refine Phi1_mono c _ _ ?_
  iintro HS0
  iexists _; iexact HS0

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

/-! ## The three cases, as the payloads of the point's blocks -/

/-- The stores and loads go through the whole-buffer rectangle at offset (0, 0). -/
theorem hz1 : (![0, 0] : Fin 2 → Nat) = fun _ => 0 := funext fun a => by
  match a with
  | 0 => rfl
  | 1 => rfl

/-- Case A leaves in the accumulator the product of the blocks added to the zero vector: the update reads the reset back. -/
theorem sout1_A_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    sout1_A_0 c i arg3 harg3 arg4 harg4 arg5 harg5 arg6 harg6 arg7 harg7 hc0 hc1 x0 x1 x2 = k1_pay2 x0 (k1_pay1 (F := F)) x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- Case B leaves in the accumulator the product added to what it held. -/
theorem sout1_B_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    sout1_B_0 c i arg3 harg3 arg4 harg4 arg5 harg5 arg6 harg6 arg7 harg7 hc0 hc1 x0 x1 x2 xs0 = k1_pay2 x0 xs0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero (S := S1024x1024) hz1]
  simp only [View.readAt_eq_ld, harg3.read_unread, harg4.read_unread, harg7.read_unread, View.ld_unit_zero (S := S1024x1024) hz1]

/-- Case C leaves in the accumulator the product added to what it held, -/
theorem sout1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    sout1_C_0 c i arg3 harg3 arg4 harg4 arg5 harg5 arg6 harg6 arg7 harg7 hc0 hc1 x0 x1 x2 xs0 = k1_pay2 x0 xs0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readAt_eq_ld, harg3.read_unread, harg4.read_unread, harg7.read_unread, View.ld_unit_zero (S := S1024x1024) hz1]

/-- and in the output's buffer that accumulator, read back, plus the bias row. -/
theorem out1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 xs0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readCov_unit_zero (S := S1024x1024) _ hz1, View.readAt_eq_ld, harg3.read_unread, harg4.read_unread, harg5.read_unread,
    harg7.read_unread, View.ld_unit_zero (S := S1024x1024) hz1, View.ld_unit_zero (S := S1x1024) hz1]

/-- At a point that resets (position ≡ 0 mod 4) the accumulator ends at the product of the point's blocks added to the zero vector. -/
theorem scratch_reset (c : Dev nD) (t : Fin cfg1.N) (h0 : t.val % 4 = 0) :
    (outsAt1 V c t.val t.isLt).2 = k1_pay2 (iblk1 V c 0 t) (k1_pay1 (F := F)) (iblk1 V c 1 t) := by
  have h1 : ¬t.val % 4 = 3 := by omega
  rw [outsAt1_A V c t h0 h1]; dsimp only
  exact sout1_A_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At any other point it ends at the product added to what the point before left. -/
theorem scratch_step (c : Dev nD) (t : Fin cfg1.N) (h0 : ¬t.val % 4 = 0) :
    (outsAt1 V c t.val t.isLt).2
      = k1_pay2 (iblk1 V c 0 t) (outsAt1 V c (t.val - 1) (Nat.lt_of_le_of_lt (Nat.sub_le _ _) t.isLt)).2 (iblk1 V c 1 t) := by
  by_cases h1 : t.val % 4 = 3
  · rw [outsAt1_C V c t h0 h1]; dsimp only
    exact sout1_C_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]; dsimp only
    exact sout1_B_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At a point that stores the output (position ≡ 3 mod 4) the output's buffer ends at the accumulator plus the bias row. -/
theorem out_store (c : Dev nD) (t : Fin cfg1.N) (h1 : t.val % 4 = 3) :
    (outsAt1 V c t.val t.isLt).1 = k1_pay3 (outsAt1 V c t.val t.isLt).2 (iblk1 V c 2 t) := by
  have h0 : ¬t.val % 4 = 0 := by omega
  rw [outsAt1_C V c t h0 h1]; dsimp only
  rw [sout1_C_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
  exact out1_C_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Cert.KernelIdeal.Hand

end
-- ==== Proof.KernelIdeal.Run.lean ====
/-
  The launch. @main is region 0, one host reshape (the bias as a one-row matrix), region 1. The contents of the
  core's unscoped buffers at the four boundaries are a fold from the launch memory: W0 the launch memory; W1 after
  region 0 (its arrays at what its write-backs leave: the merged weight new, the inputs as entered); W2 after the
  reshape; W3 after region 1 (the result new). Each region is a segment of the several-regions launch at the proof data
  of the contents it is entered from; every weakly fair execution ends with every unscoped buffer at W3, and W3 at an
  argument walks back through the fold to the launch memory.
-/
import proofs.«160088_j61813169324212_1_alg».proof.Proof.KernelIdeal.Region0
import proofs.«160088_j61813169324212_1_alg».proof.Proof.KernelIdeal.Region1
import proofs.«160088_j61813169324212_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch: region 0's entry. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- main_arg0 reaches the end as launched: region 1 only reads it, the reshape writes another buffer, region 0 bypasses it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m ρ c (Proc.devRef .tc main_arg0) := W1_of_ne m ρ c main_arg0 (by decide)
    _ = m ((c : Thread nD τ).loc main_arg0) := rfl

/-- main_arg1 reaches the end as launched: region 1 bypasses it, the reshape writes another buffer, region 0 only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- main_arg2 reaches the end as launched: region 1 bypasses it, the reshape writes another buffer, region 0 bypasses it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W0 m ρ c (Proc.devRef .tc main_arg2) := W1_of_ne m ρ c main_arg2 (by decide)
    _ = m ((c : Thread nD τ).loc main_arg2) := rfl

/-- main_arg3 reaches the end as launched: region 1 bypasses it, the reshape writes another buffer, region 0 only reads it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- main_arg4 reaches the end as launched: region 1 bypasses it, the reshape writes another buffer, region 0 only reads it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W0 m ρ c (Proc.devRef .tc main_arg4) := (W1_arr m ρ c 1).trans (((dat0 (V0 m ρ) c).arrAt_in 1 rfl _).trans (A_eq0 (V0 m ρ) c 1))
    _ = m ((c : Thread nD τ).loc main_arg4) := rfl

/-- main_arg5 reaches the end as launched: region 1 bypasses it, the reshape writes another buffer, region 0 only reads it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          exact StableHlo.devRef_ne_of_ne (by decide)))
    _ = W0 m ρ c (Proc.devRef .tc main_arg5) := (W1_arr m ρ c 3).trans (((dat0 (V0 m ρ) c).arrAt_in 3 rfl _).trans (A_eq0 (V0 m ρ) c 3))
    _ = m ((c : Thread nD τ).loc main_arg5) := rfl

/-- main_arg6 reaches the end as launched: region 1 bypasses it, the reshape writes another buffer, region 0 only reads it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          exact StableHlo.devRef_ne_of_ne (by decide)))
    _ = W0 m ρ c (Proc.devRef .tc main_arg6) := (W1_arr m ρ c 4).trans (((dat0 (V0 m ρ) c).arrAt_in 4 rfl _).trans (A_eq0 (V0 m ρ) c 4))
    _ = m ((c : Thread nD τ).loc main_arg6) := rfl

/-! ## The proof data family and the thread state -/

abbrev adm : (p : Fin 2) → (pcfgs (F := F) p).Adm := fun p => (cfgs p).toPCfg_adm
/-- Each pipeline's proof data at its region's entry contents (a literal match on the pipeline's index). -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment, from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at W3, the generator register at some state. -/
abbrev Tₙ (c : Dev nD) : sProp 𝕄 := iprop(StableHlo.held (c : Thread nD τ) (Pipeline.ucRefs τ sig) (W3 m ρ c) ∗ ∃ r, prngReg c r)

/-! ## The regions as segments -/

-- unification with the pinned configuration may unfold plain definitions in a metavariable's type
set_option backward.isDefEq.respectTransparency.types false in
/-- Region 0 over the thread state: entered from every unscoped buffer at W0, left at W1. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Region 1 over the thread state: entered from every unscoped buffer at W2, left at W3. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      (share1 (V2 m ρ) c) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) (share1 (V2 m ρ) c)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer of every core at W3. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_main m ρ)

end Cert.KernelIdeal.Hand

end
-- ==== Proof.LibReal.lean ====
/-
  Extended reals that are real numbers, and arrays all of whose entries are.

  Over the extended reals a sum or a product can meet an infinity; over the reals it cannot. The lemmas here say that the
  real numbers inside the extended reals are closed under what a dense layer does: sums (finite ones too), products,
  differences, maxima and minima, and a quotient by a real that is not zero. Then the same for whole arrays, operation by
  operation: a constant zero or one, a broadcast, a transpose and a gather (each entry of the result is an entry of the
  operand), an accumulating scatter (an entry plus a finite sum of updates), a contraction (a finite sum of products),
  a column sum, and the pointwise operations. Last: an array whose test "every |entry| is below +infinity" came out true
  has real entries only.
-/
import Idealize.ShloMosaic.PureOps.Ideal.Laws
import Idealize.ShloMosaic.Lib.IdealHost
import Idealize.ShloMosaic.Lib.ReduceAll

noncomputable section

namespace Cert.RealLib

open Idealize.ShloMosaic
open scoped BigOperators

/-! ## One extended real -/

/-- The extended real is a real number. -/
abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  rcases max_choice x y with h | h <;> rw [h] <;> assumption
theorem IsReal.min {x y : EReal} (hx : IsReal x) (hy : IsReal y) : IsReal (Min.min x y) := by
  rcases min_choice x y with h | h <;> rw [h] <;> assumption

/-- A finite sum of reals is a real. -/
theorem IsReal.sum {ι : Type*} (s : Finset ι) {f : ι → EReal} (h : ∀ i ∈ s, IsReal (f i)) : IsReal (∑ i ∈ s, f i) :=
  Finset.sum_induction f IsReal (fun _ _ => IsReal.add) isReal_zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- What is neither infinity is a real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- The extended real is a real number other than zero. -/
abbrev IsNZReal (x : EReal) : Prop := ∃ r : ℝ, r ≠ 0 ∧ x = (r : EReal)

theorem IsNZReal.isReal {x : EReal} (hx : IsNZReal x) : IsReal x := by obtain ⟨r, -, h⟩ := hx; exact ⟨r, h⟩

/-- The quotient of a real by a real that is not zero is a real. -/
theorem IsReal.div {x y : EReal} (hx : IsReal x) (hy : IsNZReal y) : IsReal (Ideal.div x y) := by
  obtain ⟨r, h0, rfl⟩ := hy
  rw [Ideal.div_coe h0]
  exact hx.mul (isReal_coe _)

/-- The larger of a real and one is a real that is at least one, so not zero. -/
theorem IsReal.max_one {x : EReal} (hx : IsReal x) : IsNZReal (Max.max x 1) := by
  obtain ⟨a, rfl⟩ := hx
  refine ⟨Max.max a 1, ?_, ?_⟩
  · have : (1 : ℝ) ≤ Max.max a 1 := le_max_right a 1
    intro h0; rw [h0] at this; exact absurd this (by norm_num)
  · rw [← EReal.coe_one]; exact (EReal.coe_strictMono.monotone.map_max (a := a) (b := 1))

/-! ## Arrays -/

/-- Every entry of the array is a real. -/
abbrev AllReal {s : Shape} (v : s.Idx → EReal) : Prop := ∀ i, IsReal (v i)
/-- Every entry of the array is a real other than zero. -/
abbrev AllNZReal {s : Shape} (v : s.Idx → EReal) : Prop := ∀ i, IsNZReal (v i)

theorem AllNZReal.allReal {s : Shape} {v : s.Idx → EReal} (h : AllNZReal v) : AllReal v := fun i => (h i).isReal

theorem allReal_constant_zero (s : Shape) : AllReal (constant (F := Ideal) s .f32 0x00000000#32) :=
  fun _ => ⟨0, by show Ideal.ofBits .f32 0x00000000#32 = _; rw [Ideal.ofBits_zero_f32]; exact EReal.coe_zero.symm⟩
theorem allReal_constant_one (s : Shape) : AllReal (constant (F := Ideal) s .f32 0x3F800000#32) :=
  fun _ => ⟨1, by show Ideal.ofBits .f32 0x3F800000#32 = _; rw [Ideal.ofBits_one_f32]; exact EReal.coe_one.symm⟩

section Ops
variable {s t : Shape} {φ : FTy}

/-- Each entry of a broadcast is an entry of the operand. -/
theorem AllReal.broadcastInDim {x : s.Idx → EReal} (h : AllReal x) (dims : Fin s.rank → Fin t.rank)
    (hb : s.BroadcastsInDim t dims) : AllReal (broadcastInDim t dims hb x) := fun _ => h _
theorem AllNZReal.broadcastInDim {x : s.Idx → EReal} (h : AllNZReal x) (dims : Fin s.rank → Fin t.rank)
    (hb : s.BroadcastsInDim t dims) : AllNZReal (broadcastInDim t dims hb x) := fun _ => h _

/-- Each entry of a transpose is an entry of the operand. -/
theorem AllReal.transpose {x : s.Idx → EReal} (h : AllReal x) (perm : List (Fin s.rank)) (ht : s.Transposes perm t) :
    AllReal (transpose t perm x ht) := fun _ => h _

/-- Each entry of a gather is an entry of the operand. -/
theorem AllReal.gather {si : Shape} {w : ℕ} {x : s.Idx → EReal} (h : AllReal x) (d : GatherDims s si t) (idx : IVec si w) :
    AllReal (Host.gather d x idx) := fun _ => h _

/-- Each entry of an accumulating scatter is the operand's entry plus a finite sum of updates. -/
theorem AllReal.scatterAdd {si u : Shape} {w : ℕ} {x : FVec Ideal s φ} {upd : FVec Ideal u φ} (hx : AllReal x)
    (hu : AllReal upd) (d : ScatterDims s si u) (idx : IVec si w) : AllReal (Host.scatterAdd d x idx upd) :=
  fun i => (hx i).add (IsReal.sum _ fun j _ => hu j)

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllReal.minimumf {x y : FVec Ideal s φ} (hx : AllReal x) (hy : AllReal y) : AllReal (minimumf x y) :=
  fun i => (hx i).min (hy i)

/-- The host's quotient by an array of reals none of which is zero. -/
theorem AllReal.hostDivf {x y : FVec Ideal s φ} (hx : AllReal x) (hy : AllNZReal y) : AllReal (Host.divf x y) :=
  fun i => (hx i).div (hy i)

/-- The pointwise larger of an array of reals and the constant one: reals, none zero. -/
theorem AllReal.maximumf_one {x : FVec Ideal s .f32} (hx : AllReal x) {y : FVec Ideal s .f32} (hy : ∀ i, y i = 1) :
    AllNZReal (Idealize.ShloMosaic.maximumf x y) := fun i => by
  show IsNZReal (Max.max (x i) (y i))
  rw [hy i]; exact (hx i).max_one

/-- A contraction is, at each index, a finite sum of products. -/
theorem AllReal.dotGeneral {sl sr so : Shape} {φ₁ φ₂ : FTy} {l : FVec Ideal sl φ₁} {r : FVec Ideal sr φ₂} (hl : AllReal l)
    (hr : AllReal r) (d : DotDims sl sr so) (prec : Option ContractPrecision) : AllReal (Host.dotGeneral d prec l r) :=
  fun j => isReal_zero.add (IsReal.sum _ fun k _ => (hl _).mul (hr _))

/-- A sum over some axes is, at each index, the initial value plus a finite sum of entries. -/
theorem AllReal.reduceAdd {axes : List (Fin s.rank)} {u : Shape} {x : FVec Ideal s φ} {init : u.Idx → Ideal φ}
    (hx : AllReal x) (hi : ∀ k, IsReal (init k)) (h : s.ReducesTo axes t) (hu : 0 < u.numel) :
    AllReal (Host.reduceAdd x init h hu) :=
  fun _ => (hi _).add (IsReal.sum _ fun i _ => hx i)

end Ops

/-! ## The test "every |entry| is below +infinity" -/

instance : Subsingleton (Shape.Idx ⟨0, ![]⟩) := ⟨fun a b => funext fun d => d.elim0⟩

theorem inf_bits : Ideal.ofBits .f32 0x7F800000#32 = (⊤ : EReal) := by
  simp [Ideal.ofBits, Ideal.ieee]

/-- An extended real whose absolute value is below +infinity is a real. -/
theorem isReal_of_abs_lt_inf (x : EReal)
    (h : Ideal.cmp .olt (Max.max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- An array of which `all (|v| < +inf)` came out true has real entries only. -/
theorem allReal_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
          (cmpf .olt (Host.absf v) (broadcastInDim s ![] hb (constant (F := Ideal) ⟨0, ![]⟩ .f32 0x7F800000#32)))
          (constantI ⟨0, ![]⟩ 1 1#1) hr hu j = 1#1) : AllReal v := fun i =>
  isReal_of_abs_lt_inf (v i) (Host.reduce_andi_all _ _ hr hu j h i)

end Cert.RealLib

end
-- ==== Proof.Spec.lean ====
/-
  What the two programs compute, as functions of the argument arrays over the extended reals, and the law that
  joins them.

  x : [8192, 4096], W : [4096, 4096], bias : [4096], A : [256, 4096], B : [4096, 256], d : [256], b : [4096].

  The kernel first merges the weight, entry (o, i):
      merged (o, i) = W (o, i) + (4 * b o) * sum over r < 256 of B (o, r) * (d r * A (r, i)),
  then multiplies x by its transpose, the 4096 shared columns in four runs of 1024 added one after the other from
  zero, and adds the bias:
      kout (t, o) = ((((0 + P0) + P1) + P2) + P3) + bias o,   Pq = sum over k < 1024 of x (t, 1024 q + k) * merged (o, 1024 q + k).
  The reference scales the rows of B by b and the rows of A by d before their product, scales the product by 4,
  adds W and contracts with x over all 4096 columns at once:
      ref (t, o) = (sum over k < 4096 of x (t, k) * (W (o, k) + 4 * sum over r of (b o * B (o, r)) * (d r * A (r, k)))) + bias o.
  The two agree when every entry is a real number: b o comes out of the sum over r (distributivity, which fails at
  the infinities), and a sum over 4096 columns is the sum of its four runs of 1024.
-/
import Idealize.ShloMosaic.PureOps.Ideal
import Idealize.ShloMosaic.PureOps.Ideal.Laws
import Idealize.ShloMosaic.Lib.ValueIdx
import proofs.«160088_j61813169324212_1_alg».proof.Proof.LibReal

noncomputable section

namespace Cert.Spec

open Idealize.ShloMosaic Idealize.ShloMosaic.ValueIdx Cert.RealLib
open scoped BigOperators

/-- The literal 4.0 both programs spell. -/
abbrev four : EReal := Ideal.ofBits .f32 0x40800000#32

/-- Column 1024 q + k of the 4096. -/
def col (q : Fin 4) (k : Fin 1024) : Fin 4096 := ⟨1024 * q.val + k.val, by have := q.isLt; have := k.isLt; omega⟩

/-- The merged weight at entry (o, i). -/
def merged (W : (⟨2, ![4096, 4096]⟩ : Shape).Idx → EReal) (B : (⟨2, ![4096, 256]⟩ : Shape).Idx → EReal) (A : (⟨2, ![256, 4096]⟩ : Shape).Idx → EReal)
    (d : (⟨1, ![256]⟩ : Shape).Idx → EReal) (b : (⟨1, ![4096]⟩ : Shape).Idx → EReal) : (⟨2, ![4096, 4096]⟩ : Shape).Idx → EReal :=
  fun i => W i + (four * b (ix1 (i 0))) * ∑ r : Fin 256, B (ix2 (i 0) r) * (d (ix1 r) * A (ix2 r (i 1)))

/-- Row t of x against row o of the merged weight over the q-th run of 1024 columns. -/
def part (x : (⟨2, ![8192, 4096]⟩ : Shape).Idx → EReal) (mg : (⟨2, ![4096, 4096]⟩ : Shape).Idx → EReal) (q : Fin 4) (t : Fin 8192) (o : Fin 4096) : EReal :=
  ∑ k : Fin 1024, x (ix2 t (col q k)) * mg (ix2 o (col q k))

/-- The kernel's result at entry (t, o): the four partial products added in order from zero, then the bias
    (held as a one-row matrix). -/
def kout (x : (⟨2, ![8192, 4096]⟩ : Shape).Idx → EReal) (mg : (⟨2, ![4096, 4096]⟩ : Shape).Idx → EReal) (bias2 : (⟨2, ![1, 4096]⟩ : Shape).Idx → EReal) :
    (⟨2, ![8192, 4096]⟩ : Shape).Idx → EReal :=
  fun i => ((((0 + part x mg 0 (i 0) (i 1)) + part x mg 1 (i 0) (i 1)) + part x mg 2 (i 0) (i 1)) + part x mg 3 (i 0) (i 1))
    + bias2 (ix2 0 (i 1))

/-- The reference's result at entry (t, o). -/
def ref (x : (⟨2, ![8192, 4096]⟩ : Shape).Idx → EReal) (W : (⟨2, ![4096, 4096]⟩ : Shape).Idx → EReal) (bias : (⟨1, ![4096]⟩ : Shape).Idx → EReal)
    (A : (⟨2, ![256, 4096]⟩ : Shape).Idx → EReal) (B : (⟨2, ![4096, 256]⟩ : Shape).Idx → EReal) (d : (⟨1, ![256]⟩ : Shape).Idx → EReal) (b : (⟨1, ![4096]⟩ : Shape).Idx → EReal) :
    (⟨2, ![8192, 4096]⟩ : Shape).Idx → EReal :=
  fun i => (∑ k : Fin 4096, x (ix2 (i 0) k)
      * (W (ix2 (i 1) k) + four * ∑ r : Fin 256, (b (ix1 (i 1)) * B (ix2 (i 1) r)) * (d (ix1 r) * A (ix2 r k))))
    + bias (ix1 (i 1))

/-! ## The reals inside the extended reals -/

/-- The literal 4.0 is the real number four. -/
theorem four_eq : four = ((4 : ℝ) : EReal) := by
  simp [Ideal.ofBits, Ideal.ieee, -EReal.coe_mul]; norm_num

theorem isReal_four : IsReal four := ⟨4, four_eq⟩

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real factor goes from in front of a sum of products of reals into each product: distributivity, which
    holds for real entries (and fails at the infinities). -/
theorem scale_sum {ι : Type*} [Fintype ι] (c β : EReal) (u v : ι → EReal) (hc : IsReal c) (hβ : IsReal β)
    (hu : ∀ r, IsReal (u r)) (hv : ∀ r, IsReal (v r)) :
    (c * β) * ∑ r, u r * v r = c * ∑ r, (β * u r) * v r := by
  obtain ⟨c', rfl⟩ := hc
  obtain ⟨β', rfl⟩ := hβ
  choose u' hu' using hu
  choose v' hv' using hv
  simp only [hu', hv', ← EReal.coe_mul, ← coe_sum]
  congr 1
  rw [Finset.mul_sum, Finset.mul_sum]
  exact Finset.sum_congr rfl fun r _ => by ring

/-! ## The 4096 columns as four runs of 1024 -/

/-- A pair (run, place in the run) is a column, and every column is one such pair. -/
def colEquiv : Fin 4 × Fin 1024 ≃ Fin 4096 where
  toFun p := col p.1 p.2
  invFun j := (⟨j.val / 1024, by have := j.isLt; omega⟩, ⟨j.val % 1024, Nat.mod_lt _ (by norm_num)⟩)
  left_inv := by
    rintro ⟨q, k⟩
    have hq := q.isLt
    have hk := k.isLt
    refine Prod.ext (Fin.ext ?_) (Fin.ext ?_)
    · show (1024 * q.val + k.val) / 1024 = q.val
      omega
    · show (1024 * q.val + k.val) % 1024 = k.val
      omega
  right_inv := by
    intro j
    refine Fin.ext ?_
    show 1024 * (j.val / 1024) + j.val % 1024 = j.val
    omega

/-- A sum over the 4096 columns is the sum over the four runs of the sums over each run's 1024 columns. -/
theorem sum_col {M : Type*} [AddCommMonoid M] (f : Fin 4096 → M) :
    ∑ k : Fin 4096, f k = ∑ q : Fin 4, ∑ k : Fin 1024, f (col q k) := by
  rw [← Equiv.sum_comp colEquiv f, Fintype.sum_prod_type]
  rfl

/-! ## The merged weight on real entries -/

/-- On real entries the factor b o of the merged weight goes into the sum over r. -/
theorem merged_eq (W : (⟨2, ![4096, 4096]⟩ : Shape).Idx → EReal) (B : (⟨2, ![4096, 256]⟩ : Shape).Idx → EReal)
    (A : (⟨2, ![256, 4096]⟩ : Shape).Idx → EReal) (d : (⟨1, ![256]⟩ : Shape).Idx → EReal) (b : (⟨1, ![4096]⟩ : Shape).Idx → EReal)
    (hA : AllReal A) (hB : AllReal B) (hd : AllReal d) (hb : AllReal b) (o j : Fin 4096) :
    merged W B A d b (ix2 o j)
      = W (ix2 o j) + four * ∑ r : Fin 256, (b (ix1 o) * B (ix2 o r)) * (d (ix1 r) * A (ix2 r j)) := by
  show W (ix2 o j) + (four * b (ix1 o)) * ∑ r : Fin 256, B (ix2 o r) * (d (ix1 r) * A (ix2 r j)) = _
  rw [scale_sum four (b (ix1 o)) (fun r => B (ix2 o r)) (fun r => d (ix1 r) * A (ix2 r j)) isReal_four (hb _)
    (fun r => hB _) (fun r => (hd _).mul (hA _))]

/-- THE LAW: on real entries the kernel's function of the merged weight is the reference's function. -/
theorem law (x : (⟨2, ![8192, 4096]⟩ : Shape).Idx → EReal) (W : (⟨2, ![4096, 4096]⟩ : Shape).Idx → EReal) (bias : (⟨1, ![4096]⟩ : Shape).Idx → EReal)
    (A : (⟨2, ![256, 4096]⟩ : Shape).Idx → EReal) (B : (⟨2, ![4096, 256]⟩ : Shape).Idx → EReal) (d : (⟨1, ![256]⟩ : Shape).Idx → EReal) (b : (⟨1, ![4096]⟩ : Shape).Idx → EReal)
    (hx : AllReal x) (hW : AllReal W) (hbias : AllReal bias) (hA : AllReal A) (hB : AllReal B) (hd : AllReal d) (hb : AllReal b) :
    kout x (merged W B A d b) (fun j => bias (ix1 (j 1))) = ref x W bias A B d b := by
  funext i
  obtain ⟨t, o, rfl⟩ : ∃ t o, i = ix2 t o := ⟨i 0, i 1, eq_ix2 i⟩
  show ((((0 + part x (merged W B A d b) 0 t o) + part x (merged W B A d b) 1 t o) + part x (merged W B A d b) 2 t o)
      + part x (merged W B A d b) 3 t o) + bias (ix1 o)
    = (∑ k : Fin 4096, x (ix2 t k)
        * (W (ix2 o k) + four * ∑ r : Fin 256, (b (ix1 o) * B (ix2 o r)) * (d (ix1 r) * A (ix2 r k)))) + bias (ix1 o)
  rw [sum_col, Fin.sum_univ_four, zero_add]
  simp only [part, merged_eq W B A d b hA hB hd hb]

end Cert.Spec

end
-- ==== Proof.KernelIdeal.Value0.lean ====
/-
  The merged weight after region 0, at the exact reals: every 512 x 512 block (j, k) the region writes back is that
  block of ONE whole-array function of the arrays the region was entered with, and the 64 blocks tile the array.

  The body's value at entry (p, q) of its block is  W (p, q) + (4 * b p) * sum over r < 256 of B (p, r) * (d r * A (r, q))
  of the five loaded blocks (the column forms of d and b read at a row, the matrix unit's product as the sum over the
  shared index, the format changes the identity). At grid point (j, k) the blocks are W (j, k), B (j, 0), A (0, k),
  d whole, b block j, so block entry (p, q) is the array entry (512 j + p, 512 k + q) of Spec.merged; entry (o, i)
  of the array lies in the block of the point with j = o / 512, k = i / 512.
-/
import proofs.«160088_j61813169324212_1_alg».proof.Proof.KernelIdeal.Region0
import proofs.«160088_j61813169324212_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## A column: a vector held as one column, and that column spread over the columns of a matrix -/

/-- A vector [a] viewed as the column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product B . (d * A) read at an entry -/

theorem dot_lhs_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem dot_lhs_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem dot_rhs_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem dot_rhs_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The matrix unit's product of a [512, 256] block with a [256, 512] block into zero, at entry (p, q): the sum over
    the 256 shared indices r of left (p, r) times right (r, q). -/
theorem matmul_at (L : FVec Ideal S512x256 .bf16) (R : FVec Ideal S256x512 .bf16) (p q : Fin 512) :
    matmul dot_S512x256_S256x512_S512x512_1_0_0_1_n_n none L R (constant (F := Ideal) S512x512 .f32 0x00000000#32) (ix2 p q)
      = ∑ r : Fin 256, L (ix2 p r) * R (ix2 r q) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q) ((contrEquiv1 dot_S512x256_S256x512_S512x512_1_0_0_1_n_n 256 rfl rfl).symm k) = ix2 p k := funext fun a => Fin.ext (by
    match a with
    | ⟨0, _⟩ => exact dot_lhs_0 _ _
    | ⟨1, _⟩ => exact (dot_lhs_1 _ _).trans hk)
  have er : dot_S512x256_S256x512_S512x512_1_0_0_1_n_n.rhsIdx (ix2 p q) ((contrEquiv1 dot_S512x256_S256x512_S512x512_1_0_0_1_n_n 256 rfl rfl).symm k) = ix2 k q := funext fun a => Fin.ext (by
    match a with
    | ⟨0, _⟩ => exact (dot_rhs_0 _ _).trans hk
    | ⟨1, _⟩ => exact dot_rhs_1 _ _)
  rw [el, er]

/-! ## The body's value at an entry of its block -/

/-- The stored value at entry (p, q) of the block, from the five loaded blocks: the base weight there plus
    (4 * b p) times the sum over r of B (p, r) * (d r * A (r, q)). -/
theorem pay_apply (xd : Vec Ideal S256 .f32) (xA : Vec Ideal S256x512 .f32) (xB : Vec Ideal S512x256 .f32) (xb : Vec Ideal S512 .f32)
    (xw : Vec Ideal S512x512 .f32) (p q : Fin 512) :
    k0_pay1 xd xA xB xb xw (ix2 p q)
      = xw (ix2 p q) + (Cert.Spec.four * xb (ix1 p)) * ∑ r : Fin 256, xB (ix2 p r) * (xd (ix1 r) * xA (ix2 r q)) := by
  unfold k0_pay1
  rw [truncf_apply, addf_apply, mulf_apply, matmul_at, broadcastTo_a1_ab_apply, mulf_apply, broadcast_apply, shapeCast_a_a1_apply]
  refine congrArg (fun z => xw (ix2 p q) + (Cert.Spec.four * xb (ix1 p)) * z) (Finset.sum_congr rfl fun r _ => ?_)
  rw [truncf_apply, truncf_apply, mulf_apply, broadcastTo_a1_ab_apply, shapeCast_a_a1_apply]

/-! ## Where the blocks of a grid point lie -/

section Blocks

variable (V : (c : Dev nD) → (b : Ref sig .tc) → Buf (Elt Ideal) ((c : Thread nD τ).loc b))

theorem hzMat : (![0, 0] : Fin 2 → Nat) = fun _ => 0 := funext fun a => by fin_cases a <;> rfl
theorem hzVec : (![0] : Fin 1 → Nat) = fun _ => 0 := funext fun a => by fin_cases a <;> rfl

/-- The index maps over the 64 grid points: at point (j, k) the base weight's block is (j, k) like the
    output's, B's is (j, 0), A's is (0, k), d's is 0, b's is j; and j, k stay below 8. -/
theorem idx_facts : ∀ t : Fin cfg0.N,
    win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = 0
    ∧ win0_2.index t (0 : Fin 2) = 0 ∧ win0_2.index t (1 : Fin 2) = win0_5.index t (1 : Fin 2)
    ∧ win0_3.index t (0 : Fin 1) = 0
    ∧ win0_4.index t (0 : Fin 1) = win0_5.index t (0 : Fin 2)
    ∧ win0_5.index t (0 : Fin 2) ≤ 7 ∧ win0_5.index t (1 : Fin 2) ≤ 7 :=
  (by decide +kernel : ∀ t : Fin grid0.N, _)

/-- Every block (j, k) of the 8 x 8 is some point's. -/
theorem idx_onto : ∀ (j k : Fin 8), ∃ t : Fin cfg0.N, win0_5.index t = ![j.val, k.val] :=
  (by decide +kernel : ∀ (j k : Fin 8), ∃ t : Fin grid0.N, win0_5.index t = ![j.val, k.val])

/-- Entry (p, q) of the base weight's block at a point is the array's entry at the output block's place. -/
theorem blkW_apply (c : Dev nD) (t : Fin cfg0.N) (p q : Fin 512) (k : S4096x4096.Idx)
    (hk0 : (k 0).val = win0_5.index t (0 : Fin 2) * 512 + p.val) (hk1 : (k 1).val = win0_5.index t (1 : Fin 2) * 512 + q.val) :
    (iblk0 V c 0 t : Vec Ideal S512x512 .f32) (ix2 p q) = V c main_arg1 k := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 512 + 1 * p.val = (k 0).val; omega
  | ⟨1, _⟩ => show win0_0.index t (1 : Fin 2) * 512 + 1 * q.val = (k 1).val; omega

/-- Entry (p, r) of B's block at a point: row p of the output block's rows, column r. -/
theorem blkB_apply (c : Dev nD) (t : Fin cfg0.N) (p : Fin 512) (r : Fin 256) (k : S4096x256.Idx)
    (hk0 : (k 0).val = win0_5.index t (0 : Fin 2) * 512 + p.val) (hk1 : (k 1).val = r.val) :
    (iblk0 V c 1 t : Vec Ideal S512x256 .f32) (ix2 p r) = V c main_arg4 k := by
  obtain ⟨-, -, e0, e1, -⟩ := idx_facts t
  unfold iblk0
  rw [View.read_apply]
  show V c main_arg4 _ = V c main_arg4 _
  congr 1
  funext a
  apply Fin.ext
  match a with
  | ⟨0, _⟩ => show win0_1.index t (0 : Fin 2) * 512 + 1 * p.val = (k 0).val; omega
  | ⟨1, _⟩ => show win0_1.index t (1 : Fin 2) * 256 + 1 * r.val = (k 1).val; omega

/-- Entry (r, q) of A's block at a point: row r, column q of the output block's columns. -/
theorem blkA_apply (c : Dev nD) (t : Fin cfg0.N) (r : Fin 256) (q : Fin 512) (k : S256x4096.Idx)
    (hk0 : (k 0).val = r.val) (hk1 : (k 1).val = win0_5.index t (1 : Fin 2) * 512 + q.val) :
    (iblk0 V c 2 t : Vec Ideal S256x512 .f32) (ix2 r q) = V c main_arg3 k := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t (0 : Fin 2) * 256 + 1 * r.val = (k 0).val; omega
  | ⟨1, _⟩ => show win0_2.index t (1 : Fin 2) * 512 + 1 * q.val = (k 1).val; omega

/-- d's block at every point is the whole vector. -/
theorem blkd_apply (c : Dev nD) (t : Fin cfg0.N) (r : Fin 256) (k : S256.Idx) (hk0 : (k 0).val = r.val) :
    (iblk0 V c 3 t : Vec Ideal S256 .f32) (ix1 r) = V c main_arg5 k := by
  obtain ⟨-, -, -, -, -, -, e0, -⟩ := idx_facts t
  unfold iblk0
  rw [View.read_apply]
  show V c main_arg5 _ = V c main_arg5 _
  congr 1
  funext a
  apply Fin.ext
  match a with
  | ⟨0, _⟩ => show win0_3.index t (0 : Fin 1) * 256 + 1 * r.val = (k 0).val; omega

/-- Entry p of b's block at a point: the output block's row p. -/
theorem blkb_apply (c : Dev nD) (t : Fin cfg0.N) (p : Fin 512) (k : S4096.Idx)
    (hk0 : (k 0).val = win0_5.index t (0 : Fin 2) * 512 + p.val) :
    (iblk0 V c 4 t : Vec Ideal S512 .f32) (ix1 p) = V c main_arg6 k := by
  obtain ⟨-, -, -, -, -, -, -, e0, -⟩ := idx_facts t
  unfold iblk0
  rw [View.read_apply]
  show V c main_arg6 _ = V c main_arg6 _
  congr 1
  funext a
  apply Fin.ext
  match a with
  | ⟨0, _⟩ => show win0_4.index t (0 : Fin 1) * 512 + 1 * p.val = (k 0).val; omega

/-! ## What a point writes back -/

/-- Over any five blocks and five arrays: if entry (p, q) of the base weight's block is the array's entry k, row p of
    b's and B's blocks is row k 0 of the arrays, column q of A's block is column k 1 of the array, and d's block is d,
    then the body's value at (p, q) is the merged weight at k. -/
theorem merged_of_blocks (W : S4096x4096.Idx → EReal) (B : S4096x256.Idx → EReal) (A : S256x4096.Idx → EReal)
    (d : S256.Idx → EReal) (b : S4096.Idx → EReal)
    (xd : Vec Ideal S256 .f32) (xA : Vec Ideal S256x512 .f32) (xB : Vec Ideal S512x256 .f32) (xb : Vec Ideal S512 .f32)
    (xw : Vec Ideal S512x512 .f32) (p q : Fin 512) (k : S4096x4096.Idx)
    (hw : xw (ix2 p q) = W k) (hb : xb (ix1 p) = b (ix1 (k 0)))
    (hB : ∀ r : Fin 256, xB (ix2 p r) = B (ix2 (k 0) r)) (hd : ∀ r : Fin 256, xd (ix1 r) = d (ix1 r))
    (hA : ∀ r : Fin 256, xA (ix2 r q) = A (ix2 r (k 1))) :
    k0_pay1 xd xA xB xb xw (ix2 p q) = Cert.Spec.merged W B A d b k := by
  rw [pay_apply, hw, hb]
  unfold Cert.Spec.merged
  refine congrArg (fun z => W k + (Cert.Spec.four * b (ix1 (k 0))) * z) (Finset.sum_congr rfl fun r _ => ?_)
  rw [hB r, hd r, hA r]

/-- The body's value at entry (p, q) of a point's block is the merged weight of the region-entry arrays at the
    array entry k that block entry is: each input block read where the output's rectangle says. -/
theorem point_eq (c : Dev nD) (t : Fin cfg0.N) (p q : Fin 512) (k : S4096x4096.Idx)
    (hk0 : (k 0).val = win0_5.index t (0 : Fin 2) * 512 + p.val) (hk1 : (k 1).val = win0_5.index t (1 : Fin 2) * 512 + q.val) :
    k0_pay1 (iblk0 V c 3 t) (iblk0 V c 2 t) (iblk0 V c 1 t) (iblk0 V c 4 t) (iblk0 V c 0 t) (ix2 p q)
      = Cert.Spec.merged (V c main_arg1) (V c main_arg4) (V c main_arg3) (V c main_arg5) (V c main_arg6) k :=
  merged_of_blocks (V c main_arg1) (V c main_arg4) (V c main_arg3) (V c main_arg5) (V c main_arg6)
    (iblk0 V c 3 t) (iblk0 V c 2 t) (iblk0 V c 1 t) (iblk0 V c 4 t) (iblk0 V c 0 t) p q k
    (blkW_apply V c t p q k hk0 hk1) (blkb_apply V c t p (ix1 (k 0)) hk0)
    (fun r => blkB_apply V c t p r (ix2 (k 0) r) hk0 rfl) (fun r => blkd_apply V c t r (ix1 r) rfl)
    (fun r => blkA_apply V c t r q (ix2 r (k 1)) rfl hk1)

/-- What point t writes back is its block of the merged weight of the region-entry arrays. -/
theorem flushed_eq (c : Dev nD) (t : Fin cfg0.N) :
    (dat0 V c).flushed 5 t = ((cfg0.win 5).blk t).view.read (Elt Ideal)
      (Cert.Spec.merged (V c main_arg1) (V c main_arg4) (V c main_arg3) (V c main_arg5) (V c main_arg6)) := by
  show (cfg0.win 5).cut (grid0.coords t) ((dat0 V c).after 5 t) = _
  rw [after0_5]
  unfold out0_5
  rw [View.canon_unit_zero hzMat]
  simp only [View.ld_unit_zero (S := S512x512) hzMat, View.ld_unit_zero (S := S512x256) hzMat, View.ld_unit_zero (S := S256x512) hzMat,
    View.ld_unit_zero (S := S256) hzVec, View.ld_unit_zero (S := S512) hzVec]
  refine funext fun (j : S512x512.Idx) => ?_
  obtain ⟨p, q, rfl⟩ : ∃ (p q : Fin 512), j = ix2 p q := ⟨j 0, j 1, eq_ix2 j⟩
  show k0_pay1 (iblk0 V c 3 t) (iblk0 V c 2 t) (iblk0 V c 1 t) (iblk0 V c 4 t) (iblk0 V c 0 t) (ix2 p q)
    = Cert.Spec.merged (V c main_arg1) (V c main_arg4) (V c main_arg3) (V c main_arg5) (V c main_arg6) (((cfg0.win 5).blk t).view.emb (ix2 p q))
  refine point_eq V c t p q _ ?_ ?_
  · show win0_5.index t (0 : Fin 2) * 512 + 1 * p.val = win0_5.index t (0 : Fin 2) * 512 + p.val; omega
  · show win0_5.index t (1 : Fin 2) * 512 + 1 * q.val = win0_5.index t (1 : Fin 2) * 512 + q.val; omega

/-! ## The 64 blocks tile the array -/

/-- An entry of the array is in point t's block iff each coordinate is in the block's range on its axis. -/
theorem mem_blk (t : Fin cfg0.N) (i : S4096x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v0).slice (win0_5.rect t)).set ↔ _
  rw [View.set_slice_whole, Rect.mem_set_unit]
  exact Iff.rfl

/-- Entry (o, i) is in the block of the point with j = o / 512, k = i / 512, and every point writes back. -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

end Blocks

/-- After region 0 the merged-weight array holds Spec.merged of the arrays the region was entered with
    (window 0 stages main_arg1 = W, 1 main_arg4 = B, 2 main_arg3 = A, 3 main_arg5 = d, 4 main_arg6 = b). -/
theorem merged_final (V : (c : Dev nD) → (b : Ref sig .tc) → Buf (Elt Ideal) ((c : Thread nD τ).loc b)) (c : Dev nD) :
    (dat0 (F := Ideal) V c).arrAt 5 cfg0.N
      = Cert.Spec.merged (V c main_arg1) (V c main_arg4) (V c main_arg3) (V c main_arg5) (V c main_arg6) :=
  (dat0 V c).arrAt_eq_of_cover 5 (Cert.Spec.merged (V c main_arg1) (V c main_arg4) (V c main_arg3) (V c main_arg5) (V c main_arg6))
    (fun t _ => flushed_eq V c t) cover

end Cert.KernelIdeal.Hand

end
-- ==== Proof.KernelIdeal.Value1.lean ====
/-
  The result array after region 1, at the exact reals: at the last of each four consecutive points (i, j, 0..3) the
  accumulator holds the four partial products of x's row block i with the merged weight's row block j added in order
  from zero; the output block (i, j) written back there is that plus the bias row, and the 32 blocks tile the array.
-/
import proofs.«160088_j61813169324212_1_alg».proof.Proof.KernelIdeal.Region1
import proofs.«160088_j61813169324212_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

namespace Value1

/-! ## The body's three payloads at an entry -/

/-- The block product contracts the left operand's axis 1 against the right operand's axis 0: at output entry i and
    contraction coordinate k the left operand is read at (i 0, k) and the right one at (k, i 1), axis by axis. -/
theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix unit's product into the zero block, at entry (p, q): row p of the left operand against column q of
    the right one. -/
theorem mm_apply (a : FVec Ideal S1024x1024 .bf16) (b : FVec Ideal S1024x1024 .bf16) (p q : Fin 1024) :
    FloatOps.matmul dot_S1024x1024_S1024x1024_S1024x1024_1_0_0_1_n_n none a b (constant (F := Ideal) S1024x1024 .f32 0x00000000#32) (ix2 p q)
      = ∑ k : Fin 1024, a (ix2 p k) * b (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The transposed weight block at (k, q) is the block at (q, k). -/
theorem tr_apply (w : FVec Ideal S1024x1024 .bf16) (k q : Fin 1024) :
    transpose S1024x1024 [1, 0] w transposes_S1024x1024_p1_0_S1024x1024 (ix2 k q) = w (ix2 q k) :=
  transpose_apply [1, 0] w transposes_S1024x1024_p1_0_S1024x1024 (ix2 k q) (ix2 q k) (fun b => match b with
    | ⟨0, _⟩ => rfl
    | ⟨1, _⟩ => rfl)

/-- The reset payload is the zero block. -/
theorem pay1_apply (p q : Fin 1024) : (k1_pay1 (F := Ideal)) (ix2 p q) = 0 := by
  unfold k1_pay1
  rw [shapeCast_self]
  exact Ideal.ofBits_zero_f32

/-- The update payload at (p, q): the accumulator's entry plus row p of the x block against row q of the weight block. -/
theorem pay2_apply (x0 acc : FVec Ideal S1024x1024 .f32) (w : FVec Ideal S1024x1024 .bf16) (p q : Fin 1024) :
    k1_pay2 (F := Ideal) x0 acc w (ix2 p q) = acc (ix2 p q) + ∑ k : Fin 1024, x0 (ix2 p k) * w (ix2 q k) := by
  unfold k1_pay2
  rw [shapeCast_self, shapeCast_self]
  show acc (ix2 p q) + FloatOps.matmul dot_S1024x1024_S1024x1024_S1024x1024_1_0_0_1_n_n none (truncf .bf16 x0 bitsLt_bf16_f32) (transpose S1024x1024 [1, 0] w transposes_S1024x1024_p1_0_S1024x1024) (constant (F := Ideal) S1024x1024 .f32 0x00000000#32) (ix2 p q) = _
  rw [mm_apply]
  refine congrArg (acc (ix2 p q) + ·) (Finset.sum_congr rfl fun k _ => ?_)
  rw [tr_apply]
  rfl

/-- The store payload at (p, q): the accumulator's entry plus the bias row's entry q. -/
theorem pay3_apply (acc : FVec Ideal S1024x1024 .f32) (b : FVec Ideal S1x1024 .f32) (p q : Fin 1024) :
    k1_pay3 (F := Ideal) acc b (ix2 p q) = acc (ix2 p q) + b (ix2 0 q) := by
  unfold k1_pay3
  rw [shapeCast_self]
  show acc (ix2 p q) + broadcastTo S1024x1024 b broadcasts_S1x1024_S1024x1024 (ix2 p q) = _
  refine congrArg (acc (ix2 p q) + ·) ?_
  exact broadcastTo_apply b broadcasts_S1x1024_S1024x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

section

/-! ## The blocks and the arrays by their literal types -/

variable (V : (c : Dev nD) → (b : Ref sig .tc) → Buf (Elt Ideal) ((c : Thread nD τ).loc b))

/-- x's block, the merged weight's block and the bias row's block at a point; the three arrays. -/
abbrev xblk (c : Dev nD) (t : Fin cfg1.N) : Vec Ideal S1024x1024 .f32 := iblk1 V c 0 t
abbrev wblk (c : Dev nD) (t : Fin cfg1.N) : Vec Ideal S1024x1024 .bf16 := iblk1 V c 1 t
abbrev bblk (c : Dev nD) (t : Fin cfg1.N) : Vec Ideal S1x1024 .f32 := iblk1 V c 2 t
abbrev xarr (c : Dev nD) : Vec Ideal S8192x4096 .f32 := V c main_arg0
abbrev warr (c : Dev nD) : Vec Ideal S4096x4096 .bf16 := V c main_v0
abbrev barr (c : Dev nD) : Vec Ideal S1x4096 .f32 := V c main_v1

/-- Point t = 16 i + 4 j + k of the grid (8, 4, 4): its run of columns k, -/
def kOf (t : Fin cfg1.N) : Fin 4 := ⟨t.val % 4, Nat.mod_lt _ (by decide)⟩
/-- row 1024 i + p of the result, -/
def rowOf (t : Fin cfg1.N) (p : Fin 1024) : Fin 8192 :=
  ⟨1024 * (t.val / 16) + p.val, by have := t.isLt; have hN : cfg1.N = 128 := N_1; have := p.isLt; omega⟩
/-- and column 1024 j + q of it. -/
def colOf (t : Fin cfg1.N) (q : Fin 1024) : Fin 4096 :=
  ⟨1024 * (t.val / 4 % 4) + q.val, by have := q.isLt; omega⟩

/-- The windows' block indices at point t = 16 i + 4 j + k: x's (i, k), the weight's (j, k), the bias row's (0, j),
    the result's (i, j). -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- x's block at point t reads x at rows 1024 i + p and the k-th run of columns. -/
theorem xblk_apply (c : Dev nD) (t : Fin cfg1.N) (p k : Fin 1024) :
    xblk V c t (ix2 p k) = xarr V c (ix2 (rowOf t p) (Cert.Spec.col (kOf t) k)) := by
  obtain ⟨e0, e1, -⟩ := idx_facts1 t
  unfold xblk iblk1
  rw [View.read_apply]
  show V c main_arg0 _ = V c main_arg0 _
  congr 1
  funext a
  apply Fin.ext
  match a with
  | ⟨0, _⟩ => show win1_0.index t (0 : Fin 2) * 1024 + 1 * p.val = 1024 * (t.val / 16) + p.val; rw [e0]; omega
  | ⟨1, _⟩ => show win1_0.index t (1 : Fin 2) * 1024 + 1 * k.val = 1024 * (t.val % 4) + k.val; rw [e1]; omega

/-- The merged weight's block reads it at rows 1024 j + q and the k-th run of columns. -/
theorem wblk_apply (c : Dev nD) (t : Fin cfg1.N) (q k : Fin 1024) :
    wblk V c t (ix2 q k) = warr V c (ix2 (colOf t q) (Cert.Spec.col (kOf t) k)) := by
  obtain ⟨-, -, e0, e1, -⟩ := idx_facts1 t
  unfold wblk iblk1
  rw [View.read_apply]
  show V c main_v0 _ = V c main_v0 _
  congr 1
  funext a
  apply Fin.ext
  match a with
  | ⟨0, _⟩ => show win1_1.index t (0 : Fin 2) * 1024 + 1 * q.val = 1024 * (t.val / 4 % 4) + q.val; rw [e0]; omega
  | ⟨1, _⟩ => show win1_1.index t (1 : Fin 2) * 1024 + 1 * k.val = 1024 * (t.val % 4) + k.val; rw [e1]; omega

/-- The bias row's block reads it at columns 1024 j + q. -/
theorem bblk_apply (c : Dev nD) (t : Fin cfg1.N) (q : Fin 1024) :
    bblk V c t (ix2 0 q) = barr V c (ix2 0 (colOf t q)) := by
  obtain ⟨-, -, -, -, e0, e1, -⟩ := idx_facts1 t
  unfold bblk iblk1
  rw [View.read_apply]
  show V c main_v1 _ = V c main_v1 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = 1024 * (t.val / 4 % 4) + q.val; rw [e1]; omega

/-- Row p of x's block against row q of the weight's block is the k-th partial product of the result's entry. -/
theorem prod_eq (c : Dev nD) (t : Fin cfg1.N) (p q : Fin 1024) :
    ∑ k : Fin 1024, xblk V c t (ix2 p k) * wblk V c t (ix2 q k)
      = Cert.Spec.part (xarr V c) (warr V c) (kOf t) (rowOf t p) (colOf t q) := by
  unfold Cert.Spec.part
  refine Finset.sum_congr rfl fun k _ => ?_
  rw [xblk_apply, wblk_apply]

/-! ## The accumulator along a run of four points -/

/-- The accumulator scratch after the body at point t. -/
abbrev acc (c : Dev nD) (t : Fin cfg1.N) : Vec Ideal S1024x1024 .f32 := (outsAt1 V c t.val t.isLt).2

/-- The n + 1 first partial products of entry (r, o) added in order from zero. -/
def runSum (x : (⟨2, ![8192, 4096]⟩ : Shape).Idx → EReal) (mg : (⟨2, ![4096, 4096]⟩ : Shape).Idx → EReal) (r : Fin 8192) (o : Fin 4096) : ℕ → EReal
  | 0 => 0 + Cert.Spec.part x mg ⟨0 % 4, Nat.mod_lt _ (by decide)⟩ r o
  | n + 1 => runSum x mg r o n + Cert.Spec.part x mg ⟨(n + 1) % 4, Nat.mod_lt _ (by decide)⟩ r o

/-- At the n-th point of a run the accumulator's entry (p, q) is that sum: the reset point adds its product to zero,
    every later point adds its product to what the point before left, and the run's points share i and j. -/
theorem acc_eq (c : Dev nD) (p q : Fin 1024) : ∀ (n : ℕ) (t : Fin cfg1.N), t.val % 4 = n →
    acc V c t (ix2 p q) = runSum (xarr V c) (warr V c) (rowOf t p) (colOf t q) n
  | 0, t, h => by
    refine (congrFun (scratch_reset V c t h) (ix2 p q)).trans ?_
    refine (pay2_apply (xblk V c t) (k1_pay1 (F := Ideal)) (wblk V c t) p q).trans ?_
    rw [pay1_apply, prod_eq]
    have hk : kOf t = ⟨0 % 4, Nat.mod_lt _ (by decide)⟩ := Fin.ext h
    rw [hk]
    rfl
  | n + 1, t, h => by
    have h0 : ¬t.val % 4 = 0 := by omega
    refine (congrFun (scratch_step V c t h0) (ix2 p q)).trans ?_
    refine (pay2_apply (xblk V c t) (acc V c ⟨t.val - 1, Nat.lt_of_le_of_lt (Nat.sub_le _ _) t.isLt⟩) (wblk V c t) p q).trans ?_
    rw [acc_eq c p q n ⟨t.val - 1, Nat.lt_of_le_of_lt (Nat.sub_le _ _) t.isLt⟩ (by show (t.val - 1) % 4 = n; omega), prod_eq]
    have hr : rowOf ⟨t.val - 1, Nat.lt_of_le_of_lt (Nat.sub_le _ _) t.isLt⟩ p = rowOf t p := Fin.ext (by
      show 1024 * ((t.val - 1) / 16) + p.val = 1024 * (t.val / 16) + p.val; omega)
    have hc : colOf ⟨t.val - 1, Nat.lt_of_le_of_lt (Nat.sub_le _ _) t.isLt⟩ q = colOf t q := Fin.ext (by
      show 1024 * ((t.val - 1) / 4 % 4) + q.val = 1024 * (t.val / 4 % 4) + q.val; omega)
    have hk : kOf t = ⟨(n + 1) % 4, Nat.mod_lt _ (by decide)⟩ := Fin.ext (by show t.val % 4 = (n + 1) % 4; omega)
    rw [hr, hc, hk]
    rfl

/-! ## From the blocks to the result array -/

/-- An entry of the result array lies in point t's output block iff each coordinate lies in the block's range. -/
theorem mem_oblk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- What the last point of a run writes back is its block of the specification: entry (p, q) of block (i, j) is the
    four partial products of row 1024 i + p and column 1024 j + q added in order from zero, plus the bias. -/
theorem flushed_eq (c : Dev nD) (t : Fin cfg1.N) (hf : (cfg1.win 3).flush t = true) :
    (dat1 (F := Ideal) V c).flushed 3 t
      = ((cfg1.win 3).blk t).view.read (Elt Ideal) (Cert.Spec.kout (V c main_arg0) (V c main_v0) (V c main_v1)) := by
  have h3 : t.val % 4 = 3 := (flush1_3 t).mp hf
  obtain ⟨-, -, -, -, -, -, e0, e1⟩ := idx_facts1 t
  show (cfg1.win 3).cut (grid1.coords t) ((dat1 (F := Ideal) V c).after 3 t) = _
  rw [after1_3, out_store V c t h3]
  funext j
  obtain ⟨p, q, rfl⟩ : ∃ (p q : Fin 1024), j = ix2 p q := ⟨j 0, j 1, eq_ix2 j⟩
  rw [View.read_apply]
  have he : ((cfg1.win 3).blk t).view.emb (ix2 p q) = ix2 (rowOf t p) (colOf t q) := by
    funext a
    apply Fin.ext
    match a with
    | ⟨0, _⟩ => show win1_3.index t (0 : Fin 2) * 1024 + 1 * p.val = 1024 * (t.val / 16) + p.val; rw [e0]; omega
    | ⟨1, _⟩ => show win1_3.index t (1 : Fin 2) * 1024 + 1 * q.val = 1024 * (t.val / 4 % 4) + q.val; rw [e1]; omega
  rw [he]
  refine (pay3_apply (acc V c t) (bblk V c t) p q).trans ?_
  rw [acc_eq V c p q 3 t h3, bblk_apply]
  rfl

/-- The 32 output blocks tile the result array: entry (r, o) lies in the block of the last point of the run
    (r / 1024, o / 1024). -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  let t : Fin cfg1.N := ⟨16 * ((i 0).val / 1024) + 4 * ((i 1).val / 1024) + 3, by omega⟩
  have ht : t.val = 16 * ((i 0).val / 1024) + 4 * ((i 1).val / 1024) + 3 := rfl
  obtain ⟨-, -, -, -, -, -, e0, e1⟩ := idx_facts1 t
  refine ⟨t, (flush1_3 t).mpr (by rw [ht]; omega), ?_⟩
  rw [mem_oblk]
  intro a
  match a with
  | ⟨0, _⟩ => show win1_3.index t (0 : Fin 2) * 1024 ≤ (i 0).val ∧ (i 0).val < win1_3.index t (0 : Fin 2) * 1024 + 1024; rw [e0, ht]; omega
  | ⟨1, _⟩ => show win1_3.index t (1 : Fin 2) * 1024 ≤ (i 1).val ∧ (i 1).val < win1_3.index t (1 : Fin 2) * 1024 + 1024; rw [e1, ht]; omega

end

end Value1

/-- After region 1 the result array holds Spec.kout of the arrays the region was entered with
    (window 0 stages main_arg0 = x, 1 main_v0 = the merged weight, 2 main_v1 = the bias as one row). -/
theorem out_final (V : (c : Dev nD) → (b : Ref sig .tc) → Buf (Elt Ideal) ((c : Thread nD τ).loc b)) (c : Dev nD) :
    (dat1 (F := Ideal) V c).arrAt 3 cfg1.N = Cert.Spec.kout (V c main_arg0) (V c main_v0) (V c main_v1) :=
  (dat1 (F := Ideal) V c).arrAt_eq_of_cover 3 (Cert.Spec.kout (V c main_arg0) (V c main_v0) (V c main_v1))
    (fun t hf => Value1.flushed_eq V c t hf) Value1.cover

end Cert.KernelIdeal.Hand

end
-- ==== Proof.KernelIdeal.Value.lean ====
/-
  The idealized kernel's result as one function of its arguments. Region 1 is entered with x as launched, the merged
  weight as region 0 left it (Spec.merged of the launch arrays) and the bias as a one-row matrix (the reshape of the
  launch bias); it leaves the result array at Spec.kout of those three.
-/
import proofs.«160088_j61813169324212_1_alg».proof.Proof.KernelIdeal.Run
import proofs.«160088_j61813169324212_1_alg».proof.Proof.KernelIdeal.Value0
import proofs.«160088_j61813169324212_1_alg».proof.Proof.KernelIdeal.Value1
import proofs.«160088_j61813169324212_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Region 1 finds x as launched: region 0 bypasses it and the reshape writes another buffer. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m ρ c (Proc.devRef .tc main_arg0) := W1_of_ne m ρ c main_arg0 (by decide)
    _ = m ((c : Thread nD τ).loc main_arg0) := rfl

/-- Region 1 finds the merged weight as region 0 left it. -/
theorem W2_main_v0 (c : Dev nD) : W2 m ρ c (Proc.devRef .tc main_v0)
    = Cert.Spec.merged (m ((c : Thread nD τ).loc main_arg1)) (m ((c : Thread nD τ).loc main_arg4)) (m ((c : Thread nD τ).loc main_arg3))
        (m ((c : Thread nD τ).loc main_arg5)) (m ((c : Thread nD τ).loc main_arg6)) :=
  calc W2 m ρ c (Proc.devRef .tc main_v0)
    _ = W1 m ρ c (Proc.devRef .tc main_v0) := StableHlo.after_of_forall_not_mem (b := Proc.devRef .tc main_v0) _ _ (List.forall_iff_forall_mem.mp (by
          simp only [hostOps1, List.Forall, StableHlo.reshape_writes, Finset.mem_singleton]
          exact StableHlo.devRef_ne_of_ne (by decide)))
    _ = (dat0 (V0 m ρ) c).arrAt 5 cfg0.N := W1_arr m ρ c 5
    _ = _ := merged_final (V0 m ρ) c

/-- Region 1 finds the bias as one row: the reshape of the launch bias, entry (0, o) the bias at o. -/
theorem W2_main_v1 (c : Dev nD) : W2 m ρ c (Proc.devRef .tc main_v1)
    = fun j : S1x4096.Idx => m ((c : Thread nD τ).loc main_arg2) (ix1 (j 1)) := by
  have e : W2 m ρ c (Proc.devRef .tc main_v1) = shapeCast S1x4096 (W1 m ρ c (Proc.devRef .tc main_arg2)) shapeCasts_S4096_S1x4096 := by
    show StableHlo.after hostOps1 _ (Proc.devRef .tc main_v1) = _
    after_results
    rfl
  rw [e, show W1 m ρ c (Proc.devRef .tc main_arg2) = m ((c : Thread nD τ).loc main_arg2) from (W1_of_ne m ρ c main_arg2 (by decide)).trans rfl]
  funext j
  refine (shapeCast_addUnit_apply ![4096] _ shapeCasts_S4096_S1x4096 j).trans ?_
  congr 1
  funext a; match a with | ⟨0, _⟩ => rfl

/-- THE KERNEL'S VALUE: every weakly fair execution of the idealized kernel ends with its result array at Spec.kout of
    x, the merged weight and the bias row, and its arguments as launched. -/
theorem kernel_run : θ_run (defs (F := Ideal)) (onTc (τ := τ) (main (F := Ideal))) ⟨m, fun _ => 0, ρ⟩ (fun r => ∀ c : Dev nD,
      r.2.mem ((c.tc : Thread nD τ).loc main_v2)
        = Cert.Spec.kout (m ((c.tc : Thread nD τ).loc main_arg0))
            (Cert.Spec.merged (m ((c.tc : Thread nD τ).loc main_arg1)) (m ((c.tc : Thread nD τ).loc main_arg4)) (m ((c.tc : Thread nD τ).loc main_arg3))
              (m ((c.tc : Thread nD τ).loc main_arg5)) (m ((c.tc : Thread nD τ).loc main_arg6)))
            (fun j => m ((c.tc : Thread nD τ).loc main_arg2) (ix1 (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v2 (by decide))).trans <| (W3_arr m ρ c 3).trans <| (out_final (V2 m ρ) c).trans (by
        rw [show V2 m ρ c main_arg0 = m ((c : Thread nD τ).loc main_arg0) from W2_main_arg0 m ρ c,
          show V2 m ρ c main_v0 = _ from W2_main_v0 m ρ c, show V2 m ρ c main_v1 = _ from W2_main_v1 m ρ c]),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_main m ρ)

end Cert.KernelIdeal.Hand

end
-- ==== Proof.RefValue.lean ====
/-
  The reference's result, read at an index: its sixteen host operations composed are Spec.ref of the arguments.
-/
import proofs.«160088_j61813169324212_1_alg».proof.Defs
import proofs.«160088_j61813169324212_1_alg».proof.Proof.Gen.ReferenceIdeal.Run
import proofs.«160088_j61813169324212_1_alg».proof.Proof.Gen.ReferenceIdeal.Read
import proofs.«160088_j61813169324212_1_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The last stage of the reference, entry by entry, is Spec.ref: at entry (t, o) the outer product reads x at
    (t, k) and the transposed sum at (o, k); the inner product reads the scaled B at (o, r) and the scaled A at
    (r, k); every broadcast reads its operand at the coordinate it keeps. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S256x4096, .f32⟩ : BufTy).Contents (Elt Ideal))
    (x4 : (⟨S4096x256, .f32⟩ : BufTy).Contents (Elt Ideal)) (x5 : (⟨S256, .f32⟩ : BufTy).Contents (Elt Ideal))
    (x6 : (⟨S4096, .f32⟩ : BufTy).Contents (Elt Ideal)) :
    Read.val_main_v14 (F := Ideal) x0 x1 x2 x3 x4 x5 x6 = Cert.Spec.ref x0 x1 x2 x3 x4 x5 x6 := by
  funext i
  obtain ⟨t, o, rfl⟩ : ∃ (t : Fin 8192) (o : Fin 4096), i = ix2 t o := ⟨i 0, i 1, eq_ix2 i⟩
  -- the bias: [4096] -> [1, 4096] -> [8192, 4096] reads coordinate o
  have e13 : Read.idx_main_v12 (Read.idx_main_v13 (ix2 t o)) = ix1 o :=
    funext fun a => Fin.ext (by match a with | ⟨0, _⟩ => rfl)
  -- the outer product: x at (t, k), the transposed sum at (o, k)
  have el11 : ∀ k : Fin 4096, Read.lidx_main_v11 (ix2 t o) k = ix2 t k := fun k =>
    funext fun a => Fin.ext (by match a with | ⟨0, _⟩ => rfl | ⟨1, _⟩ => rfl)
  have er11 : ∀ k : Fin 4096, Read.idx_main_v10 (Read.ridx_main_v11 (ix2 t o) k) = ix2 o k := fun k =>
    funext fun a => Fin.ext (by match a with | ⟨0, _⟩ => rfl | ⟨1, _⟩ => rfl)
  -- the inner product: the scaled B at (o, r), the scaled A at (r, k)
  have el6 : ∀ (k : Fin 4096) (r : Fin 256), Read.lidx_main_v6 (ix2 o k) r = ix2 o r := fun k r =>
    funext fun a => Fin.ext (by match a with | ⟨0, _⟩ => rfl | ⟨1, _⟩ => rfl)
  have er6 : ∀ (k : Fin 4096) (r : Fin 256), Read.ridx_main_v6 (ix2 o k) r = ix2 r k := fun k r =>
    funext fun a => Fin.ext (by match a with | ⟨0, _⟩ => rfl | ⟨1, _⟩ => rfl)
  -- the two column broadcasts: b at o, d at r
  have e1 : ∀ r : Fin 256, Read.idx_main_v0 (Read.idx_main_v1 (ix2 o r)) = ix1 o := fun r =>
    funext fun a => Fin.ext (by match a with | ⟨0, _⟩ => rfl)
  have e4 : ∀ (r : Fin 256) (k : Fin 4096), Read.idx_main_v3 (Read.idx_main_v4 (ix2 r k)) = ix1 r := fun r k =>
    funext fun a => Fin.ext (by match a with | ⟨0, _⟩ => rfl)
  rw [Read.val_main_v14_apply, Read.val_main_v11_apply, Read.val_main_v13_apply, Read.val_main_v12_apply, e13]
  simp only [Read.val_main_v10_apply, er11, el11, Read.val_main_v9_apply, Read.val_main_v8_apply, Read.val_main_v7_apply,
    Read.val_main_cst_apply, Read.val_main_v6_apply, el6, er6, Read.val_main_v2_apply, Read.val_main_v1_apply,
    Read.val_main_v0_apply, e1, Read.val_main_v5_apply, Read.val_main_v4_apply, Read.val_main_v3_apply, e4,
    Ideal.mulf_def, Ideal.addf_def, Ideal.ofBits_def]
  rfl

/-- Every weakly fair execution of the reference ends with its result at Spec.ref of the arguments and the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = Cert.Spec.ref (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((Read.val_main_v14_eq (F := Ideal) _ _ _ _ _ _ _).trans (result_eq _ _ _ _ _ _ _)), (h c).2⟩)
    (Cert.ReferenceIdeal.Value.run (F := Ideal) m ρ)

end Cert.ReferenceIdeal.RefValue

end
-- ==== Proof.Finite.lean ====
/-
  From the precondition (every float input finite) to: every entry of every argument array is a real number.
-/
import proofs.«160088_j61813169324212_1_alg».proof.Defs
import proofs.«160088_j61813169324212_1_alg».proof.Proof.Gen.Pre_finite_inputs
import proofs.«160088_j61813169324212_1_alg».proof.Proof.Gen.KernelIdeal
import proofs.«160088_j61813169324212_1_alg».proof.Proof.LibReal
import Idealize.ShloMosaic.Lib.ReduceAll
import Idealize.ShloMosaic.Lib.ValueIdx

noncomputable section

namespace Cert.Finite

open Idealize.ShloMosaic Idealize.SL.Sem Cert.RealLib

/-- Under the precondition every argument array of the idealized kernel has only real entries. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := Cert.KernelIdeal.S8192x4096) (m ((c.tc : Thread Cert.KernelIdeal.nD Cert.KernelIdeal.τ).loc Cert.KernelIdeal.main_arg0))
    ∧ AllReal (s := Cert.KernelIdeal.S4096x4096) (m ((c.tc : Thread Cert.KernelIdeal.nD Cert.KernelIdeal.τ).loc Cert.KernelIdeal.main_arg1))
    ∧ AllReal (s := Cert.KernelIdeal.S4096) (m ((c.tc : Thread Cert.KernelIdeal.nD Cert.KernelIdeal.τ).loc Cert.KernelIdeal.main_arg2))
    ∧ AllReal (s := Cert.KernelIdeal.S256x4096) (m ((c.tc : Thread Cert.KernelIdeal.nD Cert.KernelIdeal.τ).loc Cert.KernelIdeal.main_arg3))
    ∧ AllReal (s := Cert.KernelIdeal.S4096x256) (m ((c.tc : Thread Cert.KernelIdeal.nD Cert.KernelIdeal.τ).loc Cert.KernelIdeal.main_arg4))
    ∧ AllReal (s := Cert.KernelIdeal.S256) (m ((c.tc : Thread Cert.KernelIdeal.nD Cert.KernelIdeal.τ).loc Cert.KernelIdeal.main_arg5))
    ∧ AllReal (s := Cert.KernelIdeal.S4096) (m ((c.tc : Thread Cert.KernelIdeal.nD Cert.KernelIdeal.τ).loc Cert.KernelIdeal.main_arg6)) := by
  -- the predicate's one value, at the one index of a rank-0 array, is 1
  have h0 := congrFun (h c) ValueIdx.ix0
  -- the predicate is a sixfold "and" of seven tests "all |entry| < +infinity", one per argument array, in order
  dsimp only [Cert.Pre_finite_inputs.fn, Cert.Pre_finite_inputs.fn_part1, Idealize.ShloMosaic.andi] at h0
  -- an "and" of two one-bit words is 1 exactly when both are: peel the seven tests off from the last to the first
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  -- each test that came out true says every entry of its array has |entry| < +infinity, so is a real
  exact ⟨allReal_of_all_abs_lt_inf _ _ _ _ _ h0, allReal_of_all_abs_lt_inf _ _ _ _ _ h1,
    allReal_of_all_abs_lt_inf _ _ _ _ _ h2, allReal_of_all_abs_lt_inf _ _ _ _ _ h3,
    allReal_of_all_abs_lt_inf _ _ _ _ _ h4, allReal_of_all_abs_lt_inf _ _ _ _ _ h5,
    allReal_of_all_abs_lt_inf _ _ _ _ _ h6⟩

end Cert.Finite

end
-- ==== Proof.lean ====
/-
  The certificate of the VeRA linear layer against its reference.

  The kernel computes y = x · merged^T + bias in two regions: the first merges the weight,
  merged = W + (4 b) ⊙ (B · (d ⊙ A)), block by block; the second multiplies x by its transpose, the shared axis in four
  runs of 1024 columns accumulated in a scratch that is reset at the first run and read out, with the bias added, at the
  last. The reference scales B's rows by b and A's rows by d, multiplies, scales by 4, adds W and contracts with x at
  once. Over the extended reals the two agree on finite inputs: with every entry real, b comes out of the inner sum
  and the four partial sums are the whole sum (Spec.law).

  The frames of the two kernel programs are the several-regions launch over each region's own proof data (Run), at
  the word level and at the exact reals from one text; the reference's frame is its run with the result dropped.
-/
import proofs.«160088_j61813169324212_1_alg».proof.Defs
import proofs.«160088_j61813169324212_1_alg».proof.Proof.Gen.Kernel
import proofs.«160088_j61813169324212_1_alg».proof.Proof.Gen.KernelIdeal
import proofs.«160088_j61813169324212_1_alg».proof.Proof.Gen.ReferenceIdeal
import proofs.«160088_j61813169324212_1_alg».proof.Proof.Gen.Pre_finite_inputs
import proofs.«160088_j61813169324212_1_alg».proof.Proof.Kernel.Run
import proofs.«160088_j61813169324212_1_alg».proof.Proof.KernelIdeal.Run
import proofs.«160088_j61813169324212_1_alg».proof.Proof.KernelIdeal.Value
import proofs.«160088_j61813169324212_1_alg».proof.Proof.RefValue
import proofs.«160088_j61813169324212_1_alg».proof.Proof.Finite
import proofs.«160088_j61813169324212_1_alg».proof.Proof.Spec
import Idealize.ShloMosaic.Adequacy
import Idealize.ShloMosaic.Init

noncomputable section

namespace Cert.Proof

open Idealize.ShloMosaic Idealize.SL.Sem

/-- The word-level kernel runs to the end and leaves its arguments as launched. -/
theorem frame_p : Cert.frame_Kernel := fun m ρ _ => Cert.Kernel.Hand.frame (F := Bits) m ρ

/-- So does the idealized kernel. -/
theorem frame_pi : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The ideal pass rewrote nothing: the idealization is the program's own text read at the exact reals. -/
theorem preserves : Cert.preserves_Kernel_KernelIdeal := trivial

/-- Both programs end at Spec.ref of the arguments: the kernel at Spec.kout of the merged weight, which on finite
    inputs is Spec.ref (the law); the reference at Spec.ref of arguments that agree with the kernel's. -/
theorem algebraic : Cert.algebraic_KernelIdeal_ReferenceIdeal := by
  intro m ρ m' ρ' hpre hagree
  refine ⟨fun c => Cert.Spec.ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩) (Cert.KernelIdeal.Hand.kernel_run m ρ)
    obtain ⟨h0, h1, h2, h3, h4, h5, h6⟩ := Cert.Finite.real_of_pre m hpre c
    exact Cert.Spec.law _ _ _ _ _ _ _ h0 h1 h2 h3 h4 h5 h6
  · refine (θ_run Cert.ReferenceIdeal.defs _ _).mono (fun _ h c => ⟨(h c).1.trans ?_, (h c).2⟩) (Cert.ReferenceIdeal.RefValue.ref_run m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
